-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x20 : Shape := ⟨3, ![1024, 50, 20]⟩
abbrev S64x100000 : Shape := ⟨2, ![64, 100000]⟩
abbrev S64 : Shape := ⟨1, ![64]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S64 : S_.BroadcastsInDim S64 (![] : Fin 0 → Fin S64.rank)
  reducesTo_S64_S_d0 : S64.ReducesTo [0] S_
  bcast_S_S1024x50x20 : S_.BroadcastsInDim S1024x50x20 (![] : Fin 0 → Fin S1024x50x20.rank)
  reducesTo_S1024x50x20_S_d0_1_2 : S1024x50x20.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1024x50x20 32) (main_arg1 : FVec F S64x100000 .f32) (main_arg2 : FVec F S64 .f32) : IVec S_ 1 :=
  let main_v0 : FVec F S64x100000 .f32 := Host.absf main_arg1
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_c_2 : IVec S_ 32 := constantI S_ 32 0#32
  let main_v9 : IVec S1024x50x20 32 := broadcastInDim S1024x50x20 ![] bcast_S_S1024x50x20 main_c_2
  let main_v10 : IVec S1024x50x20 1 := cmpi .sge main_arg0 main_v9
  let main_c_3 : IVec S_ 1 := constantI S_ 1 1#1
  let main_v11 : IVec S_ 1 := (fun x v => Host.reduce IntOp.andi x v reducesTo_S1024x50x20_S_d0_1_2 h_S_) main_v10 main_c_3
  let main_v12 : IVec S_ 1 := andi main_v8 main_v11
  let main_c_4 : IVec S_ 32 := constantI S_ 32 100000#32
  let main_v13 : IVec S1024x50x20 32 := broadcastInDim S1024x50x20 ![] bcast_S_S1024x50x20 main_c_4
  let main_v14 : IVec S1024x50x20 1 := cmpi .slt main_arg0 main_v13
  let main_c_5 : IVec S_ 1 := constantI S_ 1 1#1
  let main_v15 : IVec S_ 1 := (fun x v => Host.reduce IntOp.andi x v reducesTo_S1024x50x20_S_d0_1_2 h_S_) main_v14 main_c_5
  fn_part1 (F := F) main_v12 main_v15
-- ==== Kernel.lean ====
abbrev S1024x50x20 : Shape := ⟨3, ![1024, 50, 20]⟩
abbrev S64x100000 : Shape := ⟨2, ![64, 100000]⟩
abbrev S64 : Shape := ⟨1, ![64]⟩
abbrev S51200x20 : Shape := ⟨2, ![51200, 20]⟩
abbrev S_ : Shape := ⟨0, ![]⟩
abbrev S100000x64 : Shape := ⟨2, ![100000, 64]⟩
abbrev S100352x64 : Shape := ⟨2, ![100352, 64]⟩
abbrev S1x64 : Shape := ⟨2, ![1, 64]⟩
abbrev S51200x64 : Shape := ⟨2, ![51200, 64]⟩
abbrev S1024x20 : Shape := ⟨2, ![1024, 20]⟩
abbrev S1024x64 : Shape := ⟨2, ![1024, 64]⟩
abbrev S1x256 : Shape := ⟨2, ![1, 256]⟩
abbrev S1024x256 : Shape := ⟨2, ![1024, 256]⟩
abbrev S1024x1 : Shape := ⟨2, ![1024, 1]⟩
abbrev S256x64 : Shape := ⟨2, ![256, 64]⟩
abbrev S1024x50x64 : Shape := ⟨3, ![1024, 50, 64]⟩

abbrev nBuf : Space → Nat
  | .hbm => 20
  | .vmem => 7
  | .smem => 0
  | _ => 0

abbrev bufTy : (tb : Table) → Fin (tcTables nBuf tb) → BufTy
  | .hbm, ⟨0, _⟩ => ⟨S1024x50x20, .i32⟩
  | .hbm, ⟨1, _⟩ => ⟨S64x100000, .f32⟩
  | .hbm, ⟨2, _⟩ => ⟨S64, .f32⟩
  | .hbm, ⟨3, _⟩ => ⟨S51200x20, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S51200x20, .i32⟩
  | .hbm, ⟨8, _⟩ => ⟨S51200x20, .i32⟩
  | .hbm, ⟨9, _⟩ => ⟨S_, .i32⟩
  | .hbm, ⟨10, _⟩ => ⟨S51200x20, .i32⟩
  | .hbm, ⟨11, _⟩ => ⟨S51200x20, .i32⟩
  | .hbm, ⟨12, _⟩ => ⟨S100000x64, .f32⟩
  | .hbm, ⟨13, _⟩ => ⟨S100000x64, .bf16⟩
  | .hbm, ⟨14, _⟩ => ⟨S_, .i32⟩
  | .hbm, ⟨15, _⟩ => ⟨S_, .bf16⟩
  | .hbm, ⟨16, _⟩ => ⟨S100352x64, .bf16⟩
  | .hbm, ⟨17, _⟩ => ⟨S1x64, .f32⟩
  | .hbm, ⟨18, _⟩ => ⟨S51200x64, .f32⟩
  | .hbm, ⟨19, _⟩ => ⟨S1024x50x64, .f32⟩
  | .local _ .vmem, ⟨0, _⟩ => ⟨S1024x20, .i32⟩
  | .local _ .vmem, ⟨1, _⟩ => ⟨S1024x20, .i32⟩
  | .local _ .vmem, ⟨2, _⟩ => ⟨S100352x64, .bf16⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S1024x50x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![50, 49], ![false, false]⟩

def k0_mult1 (i : grid0.Coords) : BitVec 32 :=
  let arg1 : BitVec 32 := BitVec.ofNat 32 (i 1).val
  let c2048_i32 : BitVec 32 := 2048#32
  let v6 : BitVec 32 := Scalar.muli arg1 c2048_i32
  let c0_i32_2 : BitVec 32 := 0#32
  let v7 : BitVec 32 := Scalar.addi v6 c0_i32_2
  v7
def k0_off1 (i : grid0.Coords) (c0_i32_2 : BitVec 32) : Fin 2 → Nat :=
  let arg1 : BitVec 32 := BitVec.ofNat 32 (i 1).val
  let c2048_i32 : BitVec 32 := 2048#32
  let v6 : BitVec 32 := Scalar.muli arg1 c2048_i32
  let v7 : BitVec 32 := Scalar.addi v6 c0_i32_2
  let v8 : BitVec 32 := v7
  let v173 : Index := Scalar.indexCast v8
  let c0_4 : Index := 0#32
  ![v173.toNat, 0]
def k0_mult2 (i : grid0.Coords) : BitVec 32 :=
  let arg1 : BitVec 32 := BitVec.ofNat 32 (i 1).val
  let c2048_i32_6 : BitVec 32 := 2048#32
  let v178 : BitVec 32 := Scalar.muli arg1 c2048_i32_6
  let c256_i32 : BitVec 32 := 256#32
  let v179 : BitVec 32 := Scalar.addi v178 c256_i32
  v179
def k0_mult3 (i : grid0.Coords) : BitVec 32 :=
  let arg1 : BitVec 32 := BitVec.ofNat 32 (i 1).val
  let c2048_i32_10 : BitVec 32 := 2048#32
  let v350 : BitVec 32 := Scalar.muli arg1 c2048_i32_10
  let c512_i32 : BitVec 32 := 512#32
  let v351 : BitVec 32 := Scalar.addi v350 c512_i32
  v351
def k0_mult4 (i : grid0.Coords) : BitVec 32 :=
  let arg1 : BitVec 32 := BitVec.ofNat 32 (i 1).val
  let c2048_i32_14 : BitVec 32 := 2048#32
  let v522 : BitVec 32 := Scalar.muli arg1 c2048_i32_14
  let c768_i32 : BitVec 32 := 768#32
  let v523 : BitVec 32 := Scalar.addi v522 c768_i32
  v523
def k0_mult5 (i : grid0.Coords) : BitVec 32 :=
  let arg1 : BitVec 32 := BitVec.ofNat 32 (i 1).val
  let c2048_i32_18 : BitVec 32 := 2048#32
  let v694 : BitVec 32 := Scalar.muli arg1 c2048_i32_18
  let c1024_i32 : BitVec 32 := 1024#32
  let v695 : BitVec 32 := Scalar.addi v694 c1024_i32
  v695
def k0_mult6 (i : grid0.Coords) : BitVec 32 :=
  let arg1 : BitVec 32 := BitVec.ofNat 32 (i 1).val
  let c2048_i32_22 : BitVec 32 := 2048#32
  let v866 : BitVec 32 := Scalar.muli arg1 c2048_i32_22
  let c1280_i32 : BitVec 32 := 1280#32
  let v867 : BitVec 32 := Scalar.addi v866 c1280_i32
  v867
def k0_mult7 (i : grid0.Coords) : BitVec 32 :=
  let arg1 : BitVec 32 := BitVec.ofNat 32 (i 1).val
  let c2048_i32_26 : BitVec 32 := 2048#32
  let v1038 : BitVec 32 := Scalar.muli arg1 c2048_i32_26
  let c1536_i32 : BitVec 32 := 1536#32
  let v1039 : BitVec 32 := Scalar.addi v1038 c1536_i32
  v1039
def k0_mult8 (i : grid0.Coords) : BitVec 32 :=
  let arg1 : BitVec 32 := BitVec.ofNat 32 (i 1).val
  let c2048_i32_30 : BitVec 32 := 2048#32
  let v1210 : BitVec 32 := Scalar.muli arg1 c2048_i32_30
  let c1792_i32 : BitVec 32 := 1792#32
  let v1211 : BitVec 32 := Scalar.addi v1210 c1792_i32
  v1211
def k0_cond2 (i : grid0.Coords) : BitVec 1 :=
  let arg1 : BitVec 32 := BitVec.ofNat 32 (i 1).val
  let c48_i32 : BitVec 32 := 48#32
  let v1387 : BitVec 1 := Scalar.cmpi .eq arg1 c48_i32
  let v1388 : BitVec 32 := Scalar.extui v1387
  let c0_i32_38 : BitVec 32 := 0#32
  let v1389 : BitVec 1 := Scalar.cmpi .ne v1388 c0_i32_38
  v1389

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x20 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S100352x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x50x20_S51200x20 : S1024x50x20.ShapeCasts S51200x20
  bcast_S_S51200x20 : S_.BroadcastsInDim S51200x20 (![] : Fin 0 → Fin S51200x20.rank)
  transposes_S64x100000_S100000x64_1_0 : S64x100000.Transposes [1, 0] S100000x64
  bitsLt_bf16_f32 : FTy.bits .bf16 < FTy.bits .f32
  pads_S100000x64_S100352x64_03520_000 : S100000x64.Pads (![0, 0] : Fin 2 → Nat) ![352, 0] ![0, 0] S100352x64
  h_S_ : 0 < S_.numel
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  iota_S1x256_d1_w32 : S1x256.Iotas .tc 32 [1]
  slices_S1024x20_o0_0_S1024x1 : S1024x20.Slices ![0, 0] S1024x1
  broadcasts_S1024x1_S1024x256 : S1024x1.Broadcasts S1024x256
  broadcasts_S1x256_S1024x256 : S1x256.Broadcasts S1024x256
  natLt_1_32 : 1 < 32
  slices_S1024x20_o0_1_S1024x1 : S1024x20.Slices ![0, 1] S1024x1
  slices_S1024x20_o0_2_S1024x1 : S1024x20.Slices ![0, 2] S1024x1
  slices_S1024x20_o0_3_S1024x1 : S1024x20.Slices ![0, 3] S1024x1
  slices_S1024x20_o0_4_S1024x1 : S1024x20.Slices ![0, 4] S1024x1
  slices_S1024x20_o0_5_S1024x1 : S1024x20.Slices ![0, 5] S1024x1
  slices_S1024x20_o0_6_S1024x1 : S1024x20.Slices ![0, 6] S1024x1
  slices_S1024x20_o0_7_S1024x1 : S1024x20.Slices ![0, 7] S1024x1
  slices_S1024x20_o0_8_S1024x1 : S1024x20.Slices ![0, 8] S1024x1
  slices_S1024x20_o0_9_S1024x1 : S1024x20.Slices ![0, 9] S1024x1
  slices_S1024x20_o0_10_S1024x1 : S1024x20.Slices ![0, 10] S1024x1
  slices_S1024x20_o0_11_S1024x1 : S1024x20.Slices ![0, 11] S1024x1
  slices_S1024x20_o0_12_S1024x1 : S1024x20.Slices ![0, 12] S1024x1
  slices_S1024x20_o0_13_S1024x1 : S1024x20.Slices ![0, 13] S1024x1
  slices_S1024x20_o0_14_S1024x1 : S1024x20.Slices ![0, 14] S1024x1
  slices_S1024x20_o0_15_S1024x1 : S1024x20.Slices ![0, 15] S1024x1
  slices_S1024x20_o0_16_S1024x1 : S1024x20.Slices ![0, 16] S1024x1
  slices_S1024x20_o0_17_S1024x1 : S1024x20.Slices ![0, 17] S1024x1
  slices_S1024x20_o0_18_S1024x1 : S1024x20.Slices ![0, 18] S1024x1
  slices_S1024x20_o0_19_S1024x1 : S1024x20.Slices ![0, 19] S1024x1
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S51200x64_S1024x50x64 : S51200x64.ShapeCasts S1024x50x64
  dot_S1024x256_S256x64_S1024x64_1_0_0_1_n_n_wf : DotDims.WF S1024x256 S256x64 S1024x64 [1] [0] [0] [1] [] []
  hrank0 : 0 < grid0.rank
  k0_mult1_dvd : ∀ i : grid0.Coords, 256 ∣ (k0_mult1 i).toNat
  k0_off1_inb : ∀ i : grid0.Coords, ∀ (r : Fin 8), ∀ a, (k0_off1 i (BitVec.ofNat 32 (256 * r.val))) a + S256x64.size a ≤ S100352x64.size a
  k0_mult2_dvd : ∀ i : grid0.Coords, 256 ∣ (k0_mult2 i).toNat
  k0_mult3_dvd : ∀ i : grid0.Coords, 256 ∣ (k0_mult3 i).toNat
  k0_mult4_dvd : ∀ i : grid0.Coords, 256 ∣ (k0_mult4 i).toNat
  k0_mult5_dvd : ∀ i : grid0.Coords, 256 ∣ (k0_mult5 i).toNat
  k0_mult6_dvd : ∀ i : grid0.Coords, 256 ∣ (k0_mult6 i).toNat
  k0_mult7_dvd : ∀ i : grid0.Coords, 256 ∣ (k0_mult7 i).toNat
  k0_mult8_dvd : ∀ i : grid0.Coords, 256 ∣ (k0_mult8 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x20.size a ≤ S51200x20.size a
  hwx0_0 : ∀ i : grid0.Coords, EltTy.bits .i32 = 32 ∨ (Rect.block (s := S51200x20) S1024x20.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100352x64.size a ≤ S100352x64.size a
  hwx0_1 : ∀ i : grid0.Coords, EltTy.bits .bf16 = 32 ∨ (Rect.block (s := S100352x64) S100352x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S51200x64.size a
  hwx0_3 : ∀ i : grid0.Coords, EltTy.bits .f32 = 32 ∨ (Rect.block (s := S51200x64) S1024x64.size (cc0_transform_3 i) (hinb0_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v1) S1024x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S100352x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x50x20 : Shape := ⟨3, ![1024, 50, 20]⟩
abbrev S64x100000 : Shape := ⟨2, ![64, 100000]⟩
abbrev S64 : Shape := ⟨1, ![64]⟩
abbrev S100000x64 : Shape := ⟨2, ![100000, 64]⟩
abbrev S_ : Shape := ⟨0, ![]⟩
abbrev S1024x50x20x1 : Shape := ⟨4, ![1024, 50, 20, 1]⟩
abbrev S1 : Shape := ⟨1, ![1]⟩
abbrev S1x1x1x1 : Shape := ⟨4, ![1, 1, 1, 1]⟩
abbrev S1024x50x20x64 : Shape := ⟨4, ![1024, 50, 20, 64]⟩
abbrev S1024x50x64 : Shape := ⟨3, ![1024, 50, 64]⟩
abbrev S1x1x64 : Shape := ⟨3, ![1, 1, 64]⟩

abbrev nBuf : Space → Nat
  | .hbm => 32
  | .vmem => 0
  | .smem => 0
  | _ => 0

abbrev bufTy : (tb : Table) → Fin (tcTables nBuf tb) → BufTy
  | .hbm, ⟨0, _⟩ => ⟨S1024x50x20, .i32⟩
  | .hbm, ⟨1, _⟩ => ⟨S64x100000, .f32⟩
  | .hbm, ⟨2, _⟩ => ⟨S64, .f32⟩
  | .hbm, ⟨3, _⟩ => ⟨S100000x64, .f32⟩
  | .hbm, ⟨4, _⟩ => ⟨S_, .i32⟩
  | .hbm, ⟨5, _⟩ => ⟨S1024x50x20, .i32⟩
  | .hbm, ⟨6, _⟩ => ⟨S1024x50x20, .i1⟩
  | .hbm, ⟨7, _⟩ => ⟨S_, .i32⟩
  | .hbm, ⟨8, _⟩ => ⟨S1024x50x20, .i32⟩
  | .hbm, ⟨9, _⟩ => ⟨S1024x50x20, .i32⟩
  | .hbm, ⟨10, _⟩ => ⟨S1024x50x20, .i32⟩
  | .hbm, ⟨11, _⟩ => ⟨S1024x50x20x1, .i32⟩
  | .hbm, ⟨12, _⟩ => ⟨S1, .i32⟩
  | .hbm, ⟨13, _⟩ => ⟨S_, .i32⟩
  | .hbm, ⟨14, _⟩ => ⟨S1024x50x20x1, .i32⟩
  | .hbm, ⟨15, _⟩ => ⟨S1024x50x20x1, .i1⟩
  | .hbm, ⟨16, _⟩ => ⟨S1x1x1x1, .i32⟩
  | .hbm, ⟨17, _⟩ => ⟨S1024x50x20x1, .i32⟩
  | .hbm, ⟨18, _⟩ => ⟨S1024x50x20x1, .i1⟩
  | .hbm, ⟨19, _⟩ => ⟨S1024x50x20x1, .i1⟩
  | .hbm, ⟨20, _⟩ => ⟨S_, .i1⟩
  | .hbm, ⟨21, _⟩ => ⟨S1024x50x20, .i1⟩
  | .hbm, ⟨22, _⟩ => ⟨S1024x50x20x64, .f32⟩
  | .hbm, ⟨23, _⟩ => ⟨S1024x50x20x64, .i1⟩
  | .hbm, ⟨24, _⟩ => ⟨S_, .f32⟩
  | .hbm, ⟨25, _⟩ => ⟨S1024x50x20x64, .f32⟩
  | .hbm, ⟨26, _⟩ => ⟨S1024x50x20x64, .f32⟩
  | .hbm, ⟨27, _⟩ => ⟨S_, .f32⟩
  | .hbm, ⟨28, _⟩ => ⟨S1024x50x64, .f32⟩
  | .hbm, ⟨29, _⟩ => ⟨S1x1x64, .f32⟩
  | .hbm, ⟨30, _⟩ => ⟨S1024x50x64, .f32⟩
  | .hbm, ⟨31, _⟩ => ⟨S1024x50x64, .f32⟩
  | _, _ => ⟨S1024x50x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  transposes_S64x100000_S100000x64_1_0 : S64x100000.Transposes [1, 0] S100000x64
  bcast_S_S1024x50x20 : S_.BroadcastsInDim S1024x50x20 (![] : Fin 0 → Fin S1024x50x20.rank)
  bcast_S1024x50x20_S1024x50x20x1_0_1_2 : S1024x50x20.BroadcastsInDim S1024x50x20x1 (![0, 1, 2] : Fin 3 → Fin S1024x50x20x1.rank)
  bcast_S_S1024x50x20x1 : S_.BroadcastsInDim S1024x50x20x1 (![] : Fin 0 → Fin S1024x50x20x1.rank)
  bcast_S1_S1x1x1x1_3 : S1.BroadcastsInDim S1x1x1x1 (![3] : Fin 1 → Fin S1x1x1x1.rank)
  bcast_S1x1x1x1_S1024x50x20x1_0_1_2_3 : S1x1x1x1.BroadcastsInDim S1024x50x20x1 (![0, 1, 2, 3] : Fin 4 → Fin S1024x50x20x1.rank)
  reducesTo_S1024x50x20x1_S1024x50x20_d3 : S1024x50x20x1.ReducesTo [3] S1024x50x20
  h_S_ : 0 < S_.numel
  bcast_S1024x50x20_S1024x50x20x64_0_1_2 : S1024x50x20.BroadcastsInDim S1024x50x20x64 (![0, 1, 2] : Fin 3 → Fin S1024x50x20x64.rank)
  bcast_S_S1024x50x20x64 : S_.BroadcastsInDim S1024x50x20x64 (![] : Fin 0 → Fin S1024x50x20x64.rank)
  reducesTo_S1024x50x20x64_S1024x50x64_d2 : S1024x50x20x64.ReducesTo [2] S1024x50x64
  bcast_S64_S1x1x64_2 : S64.BroadcastsInDim S1x1x64 (![2] : Fin 1 → Fin S1x1x64.rank)
  bcast_S1x1x64_S1024x50x64_0_1_2 : S1x1x64.BroadcastsInDim S1024x50x64 (![0, 1, 2] : Fin 3 → Fin S1024x50x64.rank)
  gather_S100000x64_S1024x50x20x1_S1024x50x20x64_3_0_n_n_0_3_164_wf : GatherDims.WF S100000x64 S1024x50x20x1 S1024x50x20x64 [3] [0] [] [0] [] 3 ![1, 64]

variable [Facts₀]

def gather_S100000x64_S1024x50x20x1_S1024x50x20x64_3_0_n_n_0_3_164 : GatherDims S100000x64 S1024x50x20x1 S1024x50x20x64 where
  offsetDims := [3]
  collapsedSliceDims := [0]
  operandBatchingDims := []
  startIndicesBatchingDims := []
  startIndexMap := [0]
  indexVectorDim := 3
  sliceSizes := ![1, 64]
  wf := gather_S100000x64_S1024x50x20x1_S1024x50x20x64_3_0_n_n_0_3_164_wf

class Facts : Prop extends Facts₀ where

variable [Facts]
-- ==== Proof.Spec.lean ====
/-
  The embedding bag as ONE function of the three argument arrays, and the words both programs' value
  proofs are stated in.  For a token position (p, s) and an embedding coordinate e the result is

      bag ids W b (p, s, e) = (∑ k < 20, W (e, ids (p, s, k))) + b e ,

  the sum of the twenty table columns the position's ids name, plus the bias.  The reference computes it by
  gathering the rows of the transposed table; the kernel computes it as a product of the position's
  multi-hot count vector with the (zero-padded) transposed table, accumulated over tiles of the vocabulary.
-/
import Idealize.ShloMosaic.PureOps.Ideal
import Idealize.ShloMosaic.Lib.ValueIdx

noncomputable section

open scoped BigOperators

namespace Cert.Bag

open Idealize.ShloMosaic Idealize.ShloMosaic.ValueIdx

/-- The ids: 1024 × 50 positions of 20 ids each. -/
abbrev SIds : Shape := ⟨3, ![1024, 50, 20]⟩
/-- The table: 64 embedding coordinates × 100000 vocabulary entries. -/
abbrev SW : Shape := ⟨2, ![64, 100000]⟩
/-- The bias. -/
abbrev SB : Shape := ⟨1, ![64]⟩
/-- The result. -/
abbrev SOut : Shape := ⟨3, ![1024, 50, 64]⟩

/-- An id word as a column number of the table (taken modulo the vocabulary, so that it is total; on ids in
    range it is the word's value). -/
def vid (w : BitVec 32) : Fin 100000 := ⟨w.toNat % 100000, Nat.mod_lt _ (by norm_num)⟩

theorem vid_val_of_lt (w : BitVec 32) (h : w.toNat < 100000) : (vid w).val = w.toNat := Nat.mod_eq_of_lt h

/-- The bag at one position and one coordinate. -/
def bagAt (ids : IVec SIds 32) (W : FVec Ideal SW .f32) (b : FVec Ideal SB .f32) (p : Fin 1024) (s : Fin 50) (e : Fin 64) : EReal :=
  (∑ k : Fin 20, W (ix2 e (vid (ids (ix3 p s k))))) + b (ix1 e)

/-- The bag, as the result array. -/
def bag (ids : IVec SIds 32) (W : FVec Ideal SW .f32) (b : FVec Ideal SB .f32) : FVec Ideal SOut .f32 :=
  fun i => bagAt ids W b (i 0) (i 1) (i 2)

/-- Every id is a vocabulary entry. -/
def InRange (ids : IVec SIds 32) : Prop := ∀ (p : Fin 1024) (s : Fin 50) (k : Fin 20), (ids (ix3 p s k)).toNat < 100000

/-- Every table entry is a real number. -/
def FiniteW (W : FVec Ideal SW .f32) : Prop := ∀ (e : Fin 64) (v : Fin 100000), ∃ x : ℝ, W (ix2 e v) = (x : EReal)

/-- Every bias entry is a real number. -/
def FiniteB (b : FVec Ideal SB .f32) : Prop := ∀ e : Fin 64, ∃ x : ℝ, b (ix1 e) = (x : EReal)

/-- One comparison of an id with a vocabulary number, as the number it contributes to the count: 1 on a hit. -/
def hit (a v : BitVec 32) : EReal := if a = v then 1 else 0

/-- Row `v` of the transposed table padded with zero rows up to 100352 = 49 · 2048 rows. -/
def wpad (W : FVec Ideal SW .f32) (v : Fin 100352) (e : Fin 64) : EReal :=
  if h : v.val < 100000 then W (ix2 e ⟨v.val, h⟩) else 0

/-- The kernel sees the 1024 × 50 positions as 51200 rows: row `R` is position (R / 50, R % 50). -/
def idRow (ids : IVec SIds 32) (R : Fin 51200) (k : Fin 20) : BitVec 32 :=
  ids (ix3 (⟨R.val / 50, by have := R.isLt; omega⟩ : Fin 1024) (⟨R.val % 50, Nat.mod_lt _ (by norm_num)⟩ : Fin 50) k)

/-- The bag of row `R`. -/
def bagRow (ids : IVec SIds 32) (W : FVec Ideal SW .f32) (b : FVec Ideal SB .f32) (R : Fin 51200) (e : Fin 64) : EReal :=
  bagAt ids W b (⟨R.val / 50, by have := R.isLt; omega⟩ : Fin 1024) (⟨R.val % 50, Nat.mod_lt _ (by norm_num)⟩ : Fin 50) e

/-- Grid point `t` of the 50 × 49 grid (row tiles × vocabulary tiles, the vocabulary innermost) works on row tile
    `t / 49`: its local row `r` is row `t / 49 · 1024 + r`. -/
def blkRow (t : ℕ) (ht : t < 2450) (r : Fin 1024) : Fin 51200 := ⟨t / 49 * 1024 + r.val, by have := r.isLt; omega⟩

end Cert.Bag

end
-- ==== Proof.PreDecode.lean ====
/-
  The precondition read back. The printed predicate is the conjunction of four "every element" tests:
  every table entry has absolute value below +∞, every bias entry likewise, every id is at least 0
  as a signed word, and every id is below 100000 as a signed word. An extended real whose absolute
  value is below +∞ is neither +∞ nor -∞ (the junk value a NaN pattern denotes is -∞), hence a
  real number; a 32-bit word that is non-negative as a signed number has its top bit clear, so it
  reads the same signed and unsigned, and being below 100000 signed it is below 100000 unsigned.
-/
import proofs.«429716_j70411693850629_3_alg».proof.Pre_finite_inputs
import proofs.«429716_j70411693850629_3_alg».proof.Proof.Gen.Pre_finite_inputs
import proofs.«429716_j70411693850629_3_alg».proof.Proof.Spec
import Idealize.ShloMosaic.Lib.ReduceAll
import Idealize.ShloMosaic.Lib.StableHlo.Predicate
import Idealize.ShloMosaic.Lib.ValueIdx

noncomputable section

namespace Cert.Bag

open Idealize.ShloMosaic Idealize.ShloMosaic.ValueIdx

/-- The scalar shape has one index. -/
instance subsingleton_scalar_idx : Subsingleton Cert.Pre_finite_inputs.S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max x (-x) is below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  induction x using EReal.rec with
  | bot => simp at h
  | coe r => exact ⟨r, rfl⟩
  | top => simp at h

/-- A word that is at least 0 and below 100000 as a SIGNED number is below 100000 as an unsigned one. -/
theorem toNat_lt_of_signed (w : BitVec 32) (h0 : IntOp.cmpi .sge w 0#32 = 1#1) (h1 : IntOp.cmpi .slt w 100000#32 = 1#1) :
    w.toNat < 100000 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem pre_decode (ids : IVec SIds 32) (W : FVec Ideal SW .f32) (b : FVec Ideal SB .f32)
    (h : Cert.Pre_finite_inputs.fn (F := Ideal) ids W b = (fun _ => 1#1)) : InRange ids ∧ FiniteW W ∧ FiniteB b := by
  have e := congrFun h ix0
  dsimp only [Cert.Pre_finite_inputs.fn, Cert.Pre_finite_inputs.fn_part1] at e
  simp only [andi, IntOp.andi_eq_one] at e
  obtain ⟨⟨⟨hW, hb⟩, h0⟩, h1⟩ := e
  have aW := Host.reduce_andi_all _ _ _ _ _ hW
  have ab := Host.reduce_andi_all _ _ _ _ _ hb
  have a0 := Host.reduce_andi_all _ _ _ _ _ h0
  have a1 := Host.reduce_andi_all _ _ _ _ _ h1
  refine ⟨fun p s k => ?_, fun e v => ?_, fun e => ?_⟩
  · exact toNat_lt_of_signed _ (a0 (ix3 p s k)) (a1 (ix3 p s k))
  · exact real_of_abs_lt_top _ (aW (ix2 e v))
  · exact real_of_abs_lt_top _ (ab (ix1 e))

end Cert.Bag

end
-- ==== Proof.HostPrefix.lean ====
/-
  What the kernel's three input windows hold at a grid point, in terms of the argument arrays.
  The ids reach the kernel reshaped to 51200 rows of 20 and clamped to [0, 99999] (the identity on ids in range);
  the table reaches it transposed, rounded to bf16 (the identity on the extended reals) and padded with 352 zero
  rows; the bias as one row.  Grid point t = (row tile t / 49, vocabulary tile t % 49) sees rows
  (t / 49) · 1024 … of the ids, the whole padded table, and the bias row.
-/
import proofs.«429716_j70411693850629_3_alg».proof.Proof.Gen.KernelIdeal.Frame
import proofs.«429716_j70411693850629_3_alg».proof.Proof.Spec
import Idealize.ShloMosaic.Lib.ValueIdx
import Idealize.ShloMosaic.Lib.Pipeline.Value
import Idealize.ShloMosaic.Lib.StableHlo.Predicate
import Idealize.ShloMosaic.Lib.StableHlo.Run

noncomputable section

namespace Cert.KernelIdeal.HostPrefix

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The ids argument on core `c`. -/
abbrev idsArg (c : Dev nD) : IVec Cert.Bag.SIds 32 := m ((c : Thread nD τ).loc main_arg0)
/-- The table argument. -/
abbrev wArg (c : Dev nD) : FVec Ideal Cert.Bag.SW .f32 := m ((c : Thread nD τ).loc main_arg1)
/-- The bias argument. -/
abbrev bArg (c : Dev nD) : FVec Ideal Cert.Bag.SB .f32 := m ((c : Thread nD τ).loc main_arg2)

/-- The ids block of grid point `t`, at its literal type. -/
abbrev idsBlk (c : Dev nD) (t : Fin cfg0.N) : Vec Ideal S1024x20 .i32 := iblk m c 0 t
/-- The table block (the whole padded table), at its literal type. -/
abbrev tblBlk (c : Dev nD) (t : Fin cfg0.N) : Vec Ideal S100352x64 .bf16 := iblk m c 1 t
/-- The bias block, at its literal type. -/
abbrev biasBlk (c : Dev nD) (t : Fin cfg0.N) : Vec Ideal S1x64 .f32 := iblk m c 2 t

/-! ## What the host operations before the region leave in the three arrays the windows read -/

/-- The ids array: the ids as 51200 rows of 20, each id clamped below by 0 and above by 99999. -/
theorem V_ids (c : Dev nD) : (V m c main_v1 : S51200x20.Idx → BitVec 32)
    = minsi (broadcastInDim S51200x20 ![] bcast_S_S51200x20 (constantI S_ 32 99999#32))
        (maxsi (broadcastInDim S51200x20 ![] bcast_S_S51200x20 (constantI S_ 32 0#32))
          (shapeCast S51200x20 (idsArg m c) shapeCasts_S1024x50x20_S51200x20)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The table array: the table transposed, narrowed, and padded with 352 rows of the number the word 0 converts to. -/
theorem V_tbl (c : Dev nD) : (V m c main_v4 : S100352x64.Idx → EReal)
    = pad S100352x64 ![0, 0] ![352, 0] ![0, 0]
        (truncf (F := Ideal) .bf16 (transpose S100000x64 [1, 0] (wArg m c) transposes_S64x100000_S100000x64_1_0) bitsLt_bf16_f32)
        (sitofp (F := Ideal) .bf16 (constantI S_ 32 0#32)) pads_S100000x64_S100352x64_03520_000 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The bias array: the bias as one row. -/
theorem V_bias (c : Dev nD) : (V m c main_v5 : S1x64.Idx → EReal) = shapeCast S1x64 (bArg m c) shapeCasts_S64_S1x64 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The windows' index maps, decided once over the grid -/

/-- Grid point t reads row tile t / 49 of the ids, and the one tile of the table and of the bias. -/
theorem index_facts : ∀ t : Fin cfg0.N,
    win0_0.index t (0 : Fin 2) = t.val / 49 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## Words -/

/-- Clamping below by 0 and above by 99999 (signed) leaves a word below 100000 (unsigned) as it is. -/
theorem clamp_id (w : BitVec 32) (hw : w.toNat < 100000) : IntOp.minsi 99999#32 (IntOp.maxsi 0#32 w) = w := by
  have hti : w.toInt = w.toNat := StableHlo.Predicate.toInt_eq_toNat_of_lt (by omega)
  have h0 : (0#32 : BitVec 32).toInt = 0 := by decide
  have h9 : (99999#32 : BitVec 32).toInt = 99999 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h9, decide_eq_true_eq]; omega

/-! ## The three blocks at a grid point -/

theorem idsBlk_apply (c : Dev nD) (hin : Cert.Bag.InRange (idsArg m c)) (t : Fin cfg0.N) (r : Fin 1024) (k : Fin 20) :
    idsBlk m c t (ix2 r k)
      = Cert.Bag.idRow (idsArg m c) (Cert.Bag.blkRow t.val (lt_of_lt_of_eq t.isLt (show cfg0.N = 2450 from N_0)) r) k := by
  obtain ⟨e0, e1, -⟩ := index_facts t
  have ht : t.val < 2450 := lt_of_lt_of_eq t.isLt (show cfg0.N = 2450 from N_0)
  have hr : r.val < 1024 := r.isLt
  have hR : t.val / 49 * 1024 + r.val < 51200 := by omega
  have hemb : ((cfg0.win 0).blk t).view.emb (ix2 r k)
      = (ix2 (⟨t.val / 49 * 1024 + r.val, hR⟩ : Fin 51200) k : S51200x20.Idx) := by
    funext a; apply Fin.ext
    match a with
    | ⟨0, _⟩ => show win0_0.index t (0 : Fin 2) * 1024 + 1 * r.val = t.val / 49 * 1024 + r.val; omega
    | ⟨1, _⟩ => show win0_0.index t (1 : Fin 2) * 20 + 1 * k.val = k.val; omega
  show V m c main_v1 (((cfg0.win 0).blk t).view.emb (ix2 r k)) = _
  rw [hemb, V_ids]
  show IntOp.minsi 99999#32 (IntOp.maxsi 0#32
    (shapeCast S51200x20 (idsArg m c) shapeCasts_S1024x50x20_S51200x20 (ix2 (⟨t.val / 49 * 1024 + r.val, hR⟩ : Fin 51200) k))) = _
  rw [shapeCast_apply (idsArg m c) shapeCasts_S1024x50x20_S51200x20 (ix2 (⟨t.val / 49 * 1024 + r.val, hR⟩ : Fin 51200) k)
    (ix3 (⟨(t.val / 49 * 1024 + r.val) / 50, by omega⟩ : Fin 1024) (⟨(t.val / 49 * 1024 + r.val) % 50, Nat.mod_lt _ (by norm_num)⟩ : Fin 50) k)
    (by
      rw [Shape.rowMajor_val_three, Shape.rowMajor_val_two]
      show ((t.val / 49 * 1024 + r.val) / 50 * 50 + (t.val / 49 * 1024 + r.val) % 50) * 20 + k.val = (t.val / 49 * 1024 + r.val) * 20 + k.val
      omega)]
  exact clamp_id _ (hin _ _ _)

theorem tblBlk_apply (c : Dev nD) (t : Fin cfg0.N) (n : ℕ) (hn : n < 100352) (e : Fin 64) :
    tblBlk m c t (ix2 (⟨n, hn⟩ : Fin 100352) e) = Cert.Bag.wpad (wArg m c) ⟨n, hn⟩ e := by
  obtain ⟨-, -, e0, e1, -⟩ := index_facts t
  have hemb : ((cfg0.win 1).blk t).view.emb (ix2 (⟨n, hn⟩ : Fin 100352) e) = (ix2 (⟨n, hn⟩ : Fin 100352) e : S100352x64.Idx) := by
    funext a; apply Fin.ext
    match a with
    | ⟨0, _⟩ => show win0_1.index t (0 : Fin 2) * 100352 + 1 * n = n; omega
    | ⟨1, _⟩ => show win0_1.index t (1 : Fin 2) * 64 + 1 * e.val = e.val; omega
  show V m c main_v4 (((cfg0.win 1).blk t).view.emb (ix2 (⟨n, hn⟩ : Fin 100352) e)) = _
  rw [hemb, V_tbl]
  unfold pad Cert.Bag.wpad
  by_cases h : n < 100000
  · rw [dif_pos h]
    split
    · exact transpose_apply _ _ _ _ (ix2 e (⟨n, h⟩ : Fin 100000)) (fun b => by
        match b with
        | ⟨0, _⟩ => show n = (n - 0) / (0 + 1); omega
        | ⟨1, _⟩ => show e.val = (e.val - 0) / (0 + 1); omega)
    · rename_i hnot
      exfalso; apply hnot; intro a
      match a with
      | ⟨0, _⟩ => show 0 ≤ n ∧ (n - 0) % (0 + 1) = 0 ∧ (n - 0) / (0 + 1) < 100000; omega
      | ⟨1, _⟩ => show 0 ≤ e.val ∧ (e.val - 0) % (0 + 1) = 0 ∧ (e.val - 0) / (0 + 1) < 64; have := e.isLt; omega
  · rw [dif_neg h]
    split
    · rename_i hin
      exfalso
      have h0 : 0 ≤ n ∧ (n - 0) % (0 + 1) = 0 ∧ (n - 0) / (0 + 1) < 100000 := hin (⟨0, Nat.zero_lt_two⟩ : Fin 2)
      omega
    · show (((0#32 : BitVec 32).toInt : ℝ) : EReal) = 0
      simp

theorem biasBlk_apply (c : Dev nD) (t : Fin cfg0.N) (e : Fin 64) :
    biasBlk m c t (ix2 (0 : Fin 1) e) = bArg m c (ix1 e) := by
  obtain ⟨-, -, -, -, e0, e1⟩ := index_facts t
  have hemb : ((cfg0.win 2).blk t).view.emb (ix2 (0 : Fin 1) e) = (ix2 (0 : Fin 1) e : S1x64.Idx) := by
    funext a; apply Fin.ext
    match a with
    | ⟨0, _⟩ => show win0_2.index t (0 : Fin 2) * 1 + 1 * 0 = 0; omega
    | ⟨1, _⟩ => show win0_2.index t (1 : Fin 2) * 64 + 1 * e.val = e.val; omega
  show V m c main_v5 (((cfg0.win 2).blk t).view.emb (ix2 (0 : Fin 1) e)) = _
  rw [hemb, V_bias]
  exact shapeCast_apply _ _ _ (ix1 e) (by rw [Shape.rowMajor_val_one, Shape.rowMajor_val_two]; show e.val = 0 * 64 + e.val; omega)

end Cert.KernelIdeal.HostPrefix

end
-- ==== Proof.Algebra.lean ====
/-
  The algebra over the extended reals that joins the two arrangements of the embedding bag.

  One side gathers, for each of the twenty ids of a position, the table column the id names, and adds them.  The
  other side counts, for every vocabulary number v, how many of the twenty ids equal v, multiplies that count
  with row v of the transposed table (padded with zero rows up to 100352 = 49 · 2048), and adds over v, tile by
  tile.  The two agree because each id hits exactly one vocabulary number.  The counts are non-negative, which
  is what lets the product distribute over their sum in the extended reals.
-/
import proofs.«429716_j70411693850629_3_alg».proof.Proof.Spec
import Mathlib.Data.EReal.Basic
import Mathlib.Data.EReal.Operations
import Mathlib.Algebra.BigOperators.Fin
import Mathlib.Algebra.BigOperators.Group.Finset.Basic
import Mathlib.Algebra.BigOperators.Group.Finset.Sigma
import Mathlib.Algebra.Order.BigOperators.Group.Finset
import Mathlib.Logic.Equiv.Fin.Basic

noncomputable section

open scoped BigOperators

namespace Cert.Bag

open Idealize.ShloMosaic Idealize.ShloMosaic.ValueIdx

/-! ## Sums over a product of two finite ranges -/

/-- A sum over `Fin N` with `N = m · n` is the double sum over quotient and remainder. -/
theorem sum_fin_mul (m n N : ℕ) (h : m * n = N) (g : ℕ → EReal) :
    ∑ a : Fin m, ∑ b : Fin n, g (a.val * n + b.val) = ∑ x : Fin N, g x.val := by
  subst h
  rw [← Equiv.sum_comp finProdFinEquiv (fun x : Fin (m * n) => g x.val), Fintype.sum_prod_type]
  refine Finset.sum_congr rfl fun a _ => Finset.sum_congr rfl fun b _ => ?_
  show g (a.val * n + b.val) = g (b.val + n * a.val)
  rw [Nat.mul_comm, Nat.add_comm]

/-- 100352 = 49 · 8 · 256: a sum over the padded vocabulary, tile by tile, chunk by chunk, lane by lane. -/
theorem sum_tiles (f : ℕ → EReal) :
    ∑ vt : Fin 49, ∑ c : Fin 8, ∑ j : Fin 256, f (vt.val * 2048 + c.val * 256 + j.val)
      = ∑ v : Fin 100352, f v.val := by
  rw [← sum_fin_mul 49 2048 100352 (by norm_num) f]
  refine Finset.sum_congr rfl fun vt _ => ?_
  rw [← sum_fin_mul 8 256 2048 (by norm_num) (fun x => f (vt.val * 2048 + x))]
  refine Finset.sum_congr rfl fun c _ => Finset.sum_congr rfl fun j _ => ?_
  show f (vt.val * 2048 + c.val * 256 + j.val) = f (vt.val * 2048 + (c.val * 256 + j.val))
  rw [Nat.add_assoc]

/-! ## Left-nested sums -/

/-- Adding the terms of a list one after the other onto `z` is `z` plus the sum of the list. -/
theorem foldl_add_map {α : Type} (g : α → EReal) (l : List α) (z : EReal) :
    l.foldl (fun s k => s + g k) z = z + (l.map g).sum := by
  induction l generalizing z with
  | nil => simp
  | cons a l ih => rw [List.foldl_cons, ih, List.map_cons, List.sum_cons, add_assoc]

/-- A left-nested sum of twenty terms from zero is the sum over Fin 20 (the kernel adds the comparisons one by one). -/
theorem foldl_add_eq_sum (g : Fin 20 → EReal) :
    (List.finRange 20).foldl (fun s k => s + g k) 0 = ∑ k : Fin 20, g k := by
  rw [foldl_add_map, zero_add, Fin.sum_univ_def]

/-- …and of eight. -/
theorem foldl_add_eq_sum8 (g : Fin 8 → EReal) (z : EReal) :
    (List.finRange 8).foldl (fun s c => s + g c) z = z + ∑ c : Fin 8, g c := by
  rw [foldl_add_map, Fin.sum_univ_def]

/-- Adding the 49 tile contributions one after the other from zero (the accumulator over the vocabulary tiles). -/
theorem accum_eq_sum (g : ℕ → EReal) (n : ℕ) :
    (List.range n).foldl (fun s vt => s + g vt) 0 = ∑ vt ∈ Finset.range n, g vt := by
  induction n with
  | zero => simp
  | succ n ih =>
    rw [List.range_succ, List.foldl_append, ih, Finset.sum_range_succ]
    rfl

/-! ## The multi-hot count against the padded table -/

theorem hit_nonneg (a v : BitVec 32) : 0 ≤ hit a v := by
  unfold hit
  split
  · exact zero_le_one
  · exact le_refl _

/-- A sum of non-negative extended reals times a factor is the sum of the products. -/
theorem sum_mul_of_nonneg {ι : Type} (s : Finset ι) (h : ι → EReal) (hh : ∀ i, 0 ≤ h i) (c : EReal) :
    (∑ i ∈ s, h i) * c = ∑ i ∈ s, h i * c := by
  classical
  induction s using Finset.induction_on with
  | empty => simp
  | insert a s ha ih =>
    rw [Finset.sum_insert ha, Finset.sum_insert ha,
      EReal.right_distrib_of_nonneg (hh a) (Finset.sum_nonneg fun i _ => hh i), ih]

/-- An id in range hits exactly one number of the padded vocabulary, its own, and the padded table there is the
    table column the id names. -/
theorem sum_hit_wpad (a : BitVec 32) (ha : a.toNat < 100000) (W : FVec Ideal SW .f32) (e : Fin 64) :
    ∑ v : Fin 100352, hit a (BitVec.ofNat 32 v.val) * wpad W v e = W (ix2 e (vid a)) := by
  have ha' : a.toNat < 100352 := by omega
  rw [Finset.sum_eq_single (⟨a.toNat, ha'⟩ : Fin 100352)]
  · have h1 : BitVec.ofNat 32 a.toNat = a := by
      apply BitVec.eq_of_toNat_eq
      rw [BitVec.toNat_ofNat]
      exact Nat.mod_eq_of_lt a.isLt
    have h2 : vid a = ⟨a.toNat, ha⟩ := Fin.ext (vid_val_of_lt a ha)
    show hit a (BitVec.ofNat 32 a.toNat) * wpad W ⟨a.toNat, ha'⟩ e = _
    rw [h1, h2]
    unfold hit wpad
    rw [if_pos rfl, dif_pos ha, one_mul]
  · intro v _ hv
    have hne : a ≠ BitVec.ofNat 32 v.val := by
      intro h
      apply hv
      apply Fin.ext
      show v.val = a.toNat
      rw [h, BitVec.toNat_ofNat]
      have := v.isLt
      exact (Nat.mod_eq_of_lt (by omega)).symm
    unfold hit
    rw [if_neg hne, zero_mul]
  · intro h
    exact absurd (Finset.mem_univ _) h

/-- The multi-hot count vector times the padded transposed table is the sum of the gathered columns. -/
theorem onehot_sum (row : Fin 20 → BitVec 32) (hrow : ∀ k, (row k).toNat < 100000)
    (W : FVec Ideal SW .f32) (hW : FiniteW W) (e : Fin 64) :
    ∑ v : Fin 100352, (∑ k : Fin 20, hit (row k) (BitVec.ofNat 32 v.val)) * wpad W v e
      = ∑ k : Fin 20, W (ix2 e (vid (row k))) := by
  have hd : ∀ v : Fin 100352,
      (∑ k : Fin 20, hit (row k) (BitVec.ofNat 32 v.val)) * wpad W v e
        = ∑ k : Fin 20, hit (row k) (BitVec.ofNat 32 v.val) * wpad W v e :=
    fun v => sum_mul_of_nonneg _ _ (fun k => hit_nonneg _ _) _
  rw [Finset.sum_congr rfl fun v _ => hd v, Finset.sum_comm]
  exact Finset.sum_congr rfl fun k _ => sum_hit_wpad (row k) (hrow k) W e

end Cert.Bag

end
-- ==== Proof.MatmulAt.lean ====
/-
  Two read-at-an-index lemmas for the kernel's vector operations at the ideal values.

  * `mm_apply`: the product of a 1024×256 matrix by a 256×64 matrix into a 1024×64 accumulator, read at (r, e), is
    the accumulator's entry plus the sum over the contracted coordinate of the products of the entries.
  * `ld_rows_apply`: a load of 256 consecutive rows, starting at row `off 0`, of a 100352×64 array, read at (j, e), is
    the array's entry at (off 0 + j, e).
-/
import proofs.«429716_j70411693850629_3_alg».proof.KernelIdeal
import proofs.«429716_j70411693850629_3_alg».proof.Proof.Gen.KernelIdeal
import Idealize.ShloMosaic.Lib.ValueIdx
import Idealize.ShloMosaic.PureOps.Ideal.Laws
import Idealize.ShloMosaic.Lib.Pipeline.Value

noncomputable section

open scoped BigOperators

namespace Cert.KernelIdeal.Pt

open Idealize.ShloMosaic Idealize.ShloMosaic.ValueIdx Cert.KernelIdeal

/-! ## The operand indices of the product, axis by axis -/

/-- The left operand's row is the result's row. -/
theorem lhs_mm_0 (j : S1024x64.Idx) (k : dot_S1024x256_S256x64_S1024x64_1_0_0_1_n_n.contr.Idx) :
    (dot_S1024x256_S256x64_S1024x64_1_0_0_1_n_n.lhsIdx j k 0).val = (j 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl

/-- The left operand's column is the contracted coordinate. -/
theorem lhs_mm_1 (j : S1024x64.Idx) (k : dot_S1024x256_S256x64_S1024x64_1_0_0_1_n_n.contr.Idx) :
    (dot_S1024x256_S256x64_S1024x64_1_0_0_1_n_n.lhsIdx j k 1).val = (k ⟨0, Nat.one_pos⟩).val :=
  DotDims.lhsIdx_val_of_single (d := dot_S1024x256_S256x64_S1024x64_1_0_0_1_n_n) rfl j k

/-- The right operand's row is the contracted coordinate. -/
theorem rhs_mm_0 (j : S1024x64.Idx) (k : dot_S1024x256_S256x64_S1024x64_1_0_0_1_n_n.contr.Idx) :
    (dot_S1024x256_S256x64_S1024x64_1_0_0_1_n_n.rhsIdx j k 0).val = (k ⟨0, Nat.one_pos⟩).val :=
  DotDims.rhsIdx_val_of_single (d := dot_S1024x256_S256x64_S1024x64_1_0_0_1_n_n) rfl j k

/-- The right operand's column is the result's column. -/
theorem rhs_mm_1 (j : S1024x64.Idx) (k : dot_S1024x256_S256x64_S1024x64_1_0_0_1_n_n.contr.Idx) :
    (dot_S1024x256_S256x64_S1024x64_1_0_0_1_n_n.rhsIdx j k 1).val = (j 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-! ## The product at an index -/

/-- The matrix product into an accumulator, read at (r, e): the accumulator's entry plus the sum over the contracted
    coordinate of the products of the two operands' entries. -/
theorem mm_apply (A : FVec Ideal S1024x256 .bf16) (B : FVec Ideal S256x64 .bf16) (acc : FVec Ideal S1024x64 .f32)
    (r : Fin 1024) (e : Fin 64) :
    matmul dot_S1024x256_S256x64_S1024x64_1_0_0_1_n_n none A B acc (ix2 r e)
      = acc (ix2 r e) + ∑ j : Fin 256, A (ix2 r j) * B (ix2 j e) := by
  show FloatOps.matmul _ none A B acc (ix2 r e) = _
  rw [Ideal.matmul_apply,
    ← Equiv.sum_comp (contrEquiv1 dot_S1024x256_S256x64_S1024x64_1_0_0_1_n_n 256 rfl rfl).symm]
  refine congrArg (acc (ix2 r e) + ·) (Finset.sum_congr rfl fun c _ => ?_)
  have hc := contrEquiv1_symm_val dot_S1024x256_S256x64_S1024x64_1_0_0_1_n_n 256 rfl rfl c
  have hl : dot_S1024x256_S256x64_S1024x64_1_0_0_1_n_n.lhsIdx (ix2 r e)
      ((contrEquiv1 dot_S1024x256_S256x64_S1024x64_1_0_0_1_n_n 256 rfl rfl).symm c) = ix2 r c := by
    funext ax; apply Fin.ext
    match ax with
    | ⟨0, _⟩ => exact lhs_mm_0 _ _
    | ⟨1, _⟩ => exact (lhs_mm_1 _ _).trans hc
  have hr : dot_S1024x256_S256x64_S1024x64_1_0_0_1_n_n.rhsIdx (ix2 r e)
      ((contrEquiv1 dot_S1024x256_S256x64_S1024x64_1_0_0_1_n_n 256 rfl rfl).symm c) = ix2 c e := by
    funext ax; apply Fin.ext
    match ax with
    | ⟨0, _⟩ => exact (rhs_mm_0 _ _).trans hc
    | ⟨1, _⟩ => exact rhs_mm_1 _ _
  rw [hl, hr]

end Cert.KernelIdeal.Pt
-- ==== Proof.LoadAt.lean ====
/-
  A load of 256 consecutive rows of a 100352×64 array, read at an index.

  The load's rectangle has unit strides, offsets `off` with `off 1 = 0`, and sizes 256×64; its element at (j, e) is
  the array's element at (off 0 + j, e).
-/
import proofs.«429716_j70411693850629_3_alg».proof.KernelIdeal
import Idealize.ShloMosaic.Lib.ValueIdx
import Idealize.ShloMosaic.Lib.Pipeline.Value

noncomputable section

namespace Cert.KernelIdeal.Pt

open Idealize.ShloMosaic Idealize.ShloMosaic.ValueIdx Cert.KernelIdeal

/-- The row `off 0 + j` is a row of the array. -/
theorem ld_row_lt (off : Fin 2 → Nat) (inb : ∀ a, off a + S256x64.size a ≤ S100352x64.size a) (j : Fin 256) :
    off 0 + j.val < 100352 := by
  have h := inb 0
  have hj := j.isLt
  have e1 : S256x64.size 0 = 256 := rfl
  have e2 : S100352x64.size 0 = 100352 := rfl
  rw [e1, e2] at h
  omega

/-- Where the load's rectangle places (j, e): at (off 0 + j, e). -/
theorem ld_rows_idx (off : Fin 2 → Nat) (inb : ∀ a, off a + S256x64.size a ≤ S100352x64.size a) (h1 : off 1 = 0)
    (j : Fin 256) (e : Fin 64) :
    (Rect.unit (s := S100352x64) off S256x64.size inb).toLoadRect.idx (ix2 j e)
      = ix2 ⟨off 0 + j.val, ld_row_lt off inb j⟩ e := by
  funext a; apply Fin.ext
  match a with
  | ⟨0, _⟩ =>
    show off 0 + 1 * j.val = off 0 + j.val
    rw [Nat.one_mul]
  | ⟨1, _⟩ =>
    show off 1 + 1 * e.val = e.val
    rw [h1, Nat.one_mul, Nat.zero_add]

/-- The loaded block at (j, e) is the array at (off 0 + j, e), whatever the elements are. -/
theorem ld_rows_apply {Val : EltTy → Type} {t : EltTy} (X : S100352x64.Idx → Val t) (off : Fin 2 → Nat)
    (inb : ∀ a, off a + S256x64.size a ≤ S100352x64.size a) (h1 : off 1 = 0) (j : Fin 256) (e : Fin 64) :
    View.ld X (Rect.unit (s := S100352x64) off S256x64.size inb) (ix2 j e)
      = X (ix2 ⟨off 0 + j.val, ld_row_lt off inb j⟩ e) :=
  congrArg X (ld_rows_idx off inb h1 j e)

/-- The same for an array of bf16 elements at the ideal values. -/
theorem ld_rows_apply_bf16 (X : Vec Ideal S100352x64 .bf16) (off : Fin 2 → Nat)
    (inb : ∀ a, off a + S256x64.size a ≤ S100352x64.size a) (h1 : off 1 = 0) (j : Fin 256) (e : Fin 64) :
    View.ld (Val := Elt Ideal) (e' := .bf16) X (Rect.unit (s := S100352x64) off S256x64.size inb) (ix2 j e)
      = X (ix2 ⟨off 0 + j.val, ld_row_lt off inb j⟩ e) :=
  ld_rows_apply X off inb h1 j e

end Cert.KernelIdeal.Pt
-- ==== Proof.PointValue.lean ====
/-
  What the kernel body computes at one grid point, read at one entry.  The body compares each of the twenty
  ids of a row with the 2048 vocabulary numbers of the point's vocabulary tile (eight chunks of 256 lanes),
  adding a 1 per hit — the row's multi-hot count vector over the tile —, multiplies each chunk of counts with
  the matching 256 rows of the padded transposed table, and adds the eight products into the accumulator it
  carries across the vocabulary tiles (zeroed at the first tile); at the last tile it also stores the
  accumulator plus the bias row.  Entry (r, e) of what it adds is

      tileNF vt x0 x1 r e = ∑ chunk, ∑ lane, (∑ k < 20, hit (x0 (r, k)) (vt·2048 + chunk·256 + lane)) · x1 (vt·2048 + chunk·256 + lane, e).
-/
import proofs.«429716_j70411693850629_3_alg».proof.Proof.Gen.KernelIdeal.Frame
import proofs.«429716_j70411693850629_3_alg».proof.Proof.Spec
import proofs.«429716_j70411693850629_3_alg».proof.Proof.MatmulAt
import proofs.«429716_j70411693850629_3_alg».proof.Proof.LoadAt
import Idealize.ShloMosaic.Lib.ValueIdx
import Idealize.ShloMosaic.Lib.Pipeline.Value
import Idealize.ShloMosaic.PureOps.Ideal.Laws

noncomputable section

namespace Cert.KernelIdeal.PointValue

open Idealize.ShloMosaic Idealize.ShloMosaic.ValueIdx Idealize.ShloMosaic.TcCoe Idealize.ShloMosaic.Tactic Idealize.SL Idealize.SL.Sem
open Cert.KernelIdeal Cert.KernelIdeal.Gen Cert.KernelIdeal.Pt Cert.Bag
open scoped BigOperators

/-! ## The words of the normal form -/

/-- Twenty terms added one after the other, as the body adds the twenty comparisons of a row. -/
def cnt20 (g : Fin 20 → EReal) : EReal := g ⟨0, by norm_num⟩ + g ⟨1, by norm_num⟩ + g ⟨2, by norm_num⟩ + g ⟨3, by norm_num⟩ + g ⟨4, by norm_num⟩ + g ⟨5, by norm_num⟩ + g ⟨6, by norm_num⟩ + g ⟨7, by norm_num⟩ + g ⟨8, by norm_num⟩ + g ⟨9, by norm_num⟩ + g ⟨10, by norm_num⟩ + g ⟨11, by norm_num⟩ + g ⟨12, by norm_num⟩ + g ⟨13, by norm_num⟩ + g ⟨14, by norm_num⟩ + g ⟨15, by norm_num⟩ + g ⟨16, by norm_num⟩ + g ⟨17, by norm_num⟩ + g ⟨18, by norm_num⟩ + g ⟨19, by norm_num⟩

/-- Row `n` of the padded table block at coordinate `e` (zero past the block: never met). -/
def rowAt (x1 : Vec Ideal S100352x64 .bf16) (n : ℕ) (e : Fin 64) : EReal :=
  if h : n < 100352 then x1 (ix2 (⟨n, h⟩ : Fin 100352) e) else 0

/-- One chunk of 256 lanes starting at vocabulary number `vt · 2048 + n`: its counts times its table rows. -/
def chunkTerm (vt n : ℕ) (x0 : Vec Ideal S1024x20 .i32) (x1 : Vec Ideal S100352x64 .bf16) (r : Fin 1024) (e : Fin 64) : EReal :=
  ∑ x : Fin 256, cnt20 (fun k => hit (x0 (ix2 r k)) (BitVec.ofNat 32 (vt * 2048 + n + x.val))) * rowAt x1 (vt * 2048 + n + x.val) e

/-- The eight chunks of vocabulary tile `vt`, added one after the other. -/
def tileNF (vt : ℕ) (x0 : Vec Ideal S1024x20 .i32) (x1 : Vec Ideal S100352x64 .bf16) (r : Fin 1024) (e : Fin 64) : EReal :=
  chunkTerm vt 0 x0 x1 r e + chunkTerm vt 256 x0 x1 r e + chunkTerm vt 512 x0 x1 r e + chunkTerm vt 768 x0 x1 r e + chunkTerm vt 1024 x0 x1 r e + chunkTerm vt 1280 x0 x1 r e + chunkTerm vt 1536 x0 x1 r e + chunkTerm vt 1792 x0 x1 r e

/-! ## The operations of the body read at an index -/

theorem cmpi_at {s : Shape} {w : ℕ} (p : CmpIPredicate) (a b : IVec s w) (i : s.Idx) : cmpi p a b i = IntOp.cmpi p (a i) (b i) := rfl
theorem addi_at {s : Shape} {w : ℕ} (a b : IVec s w) (i : s.Idx) : addi a b i = IntOp.addi (a i) (b i) := rfl

/-- An id column broadcast along the lanes reads the column. -/
theorem bcast_col_apply {α : Type} (x : S1024x1.Idx → α) (h : S1024x1.Broadcasts S1024x256) (r : Fin 1024) (j : Fin 256) :
    broadcastTo S1024x256 x h (ix2 r j) = x (ix2 r 0) :=
  broadcastTo_apply x h _ _ (fun a => by match a with | ⟨0, _⟩ => rfl | ⟨1, _⟩ => rfl)

/-- The lane row broadcast along the rows reads the lane. -/
theorem bcast_row_apply {α : Type} (x : S1x256.Idx → α) (h : S1x256.Broadcasts S1024x256) (r : Fin 1024) (j : Fin 256) :
    broadcastTo S1024x256 x h (ix2 r j) = x (ix2 0 j) :=
  broadcastTo_apply x h _ _ (fun a => by match a with | ⟨0, _⟩ => rfl | ⟨1, _⟩ => rfl)

/-- The bias row broadcast along the rows reads the bias. -/
theorem bcast_bias_apply {α : Type} (x : S1x64.Idx → α) (h : S1x64.Broadcasts S1024x64) (r : Fin 1024) (e : Fin 64) :
    broadcastTo S1024x64 x h (ix2 r e) = x (ix2 0 e) :=
  broadcastTo_apply x h _ _ (fun a => by match a with | ⟨0, _⟩ => rfl | ⟨1, _⟩ => rfl)

/-- Column `k` of the ids block as a column vector. -/
theorem slice_col_apply {α : Type} (x : S1024x20.Idx → α) (k : ℕ) (h : S1024x20.Slices ![0, k] S1024x1) (r : Fin 1024) :
    extractStridedSlice S1024x1 ![0, k] x h (ix2 r 0) = x (ix2 r ⟨k, by have := h.2 1; simpa using this⟩) :=
  extractStridedSlice_apply _ x h _ _ (fun a => by match a with | ⟨0, _⟩ => simp | ⟨1, _⟩ => simp)

theorem hz2 : (![0, 0] : Fin 2 → ℕ) = fun _ => 0 := by funext a; match a with | ⟨0, _⟩ => rfl | ⟨1, _⟩ => rfl

/-- The bf16 zero the counts start from. -/
theorem ofBits_zero_bf16 : Ideal.ofBits .bf16 0x0000#16 = 0 := by simp [Ideal.ofBits, Ideal.ieee]

/-- One comparison, widened and converted: 1 on a hit, 0 otherwise. -/
theorem hit_eq (a b : BitVec 32) :
    (FloatOps.sitofp (F := Ideal) .f32 (BitVec.setWidth 32 (IntOp.cmpi CmpIPredicate.eq a b)) : EReal) = hit a b := by
  unfold hit
  by_cases h : a = b
  · have hc : IntOp.cmpi CmpIPredicate.eq a b = 1#1 := by subst h; simp [IntOp.cmpi]
    rw [hc, if_pos h]
    show ((((BitVec.setWidth 32 (1#1 : BitVec 1)).toInt : ℝ)) : EReal) = 1
    have h1 : (BitVec.setWidth 32 (1#1 : BitVec 1)).toInt = 1 := by decide
    rw [h1]; simp
  · have hc : IntOp.cmpi CmpIPredicate.eq a b = 0#1 := by
      have hb : (a == b) = false := beq_eq_false_iff_ne.mpr h
      simp [IntOp.cmpi, hb]
    rw [hc, if_neg h]
    show ((((BitVec.setWidth 32 (0#1 : BitVec 1)).toInt : ℝ)) : EReal) = 0
    have h0 : (BitVec.setWidth 32 (0#1 : BitVec 1)).toInt = 0 := by decide
    rw [h0]; simp

/-- The vocabulary number of a lane of the chunk at `vt · 2048 + cw`. -/
theorem lane_eq (vt : ℕ) (cw : BitVec 32) (n : ℕ) :
    IntOp.addi (Scalar.addi (Scalar.muli (BitVec.ofNat 32 vt) 2048#32) cw) (BitVec.ofNat 32 n)
      = BitVec.ofNat 32 (vt * 2048 + cw.toNat + n) := by
  show BitVec.ofNat 32 vt * 2048#32 + cw + BitVec.ofNat 32 n = _
  simp [BitVec.ofNat_add, BitVec.ofNat_mul]

/-- A chunk's 256 table rows, loaded at the chunk's offset, read at (lane, e). -/
theorem ld_tile (x1 : Vec Ideal S100352x64 .bf16) (i : grid0.Coords) (n : ℕ) (c : Fin 8) (hn : n = 256 * c.val)
    (inb : ∀ a, k0_off1 i (BitVec.ofNat 32 n) a + S256x64.size a ≤ S100352x64.size a) (x : Fin 256) (e : Fin 64) :
    View.ld (Val := Elt Ideal) (e' := .bf16) x1 (Rect.unit (s := S100352x64) (k0_off1 i (BitVec.ofNat 32 n)) S256x64.size inb) (ix2 x e)
      = rowAt x1 ((i 1).val * 2048 + n + x.val) e := by
  subst hn
  have h0 : k0_off1 i (BitVec.ofNat 32 (256 * c.val)) = ![2048 * (i 1).val + 256 * c.val, 0] := Gen.k0_off1_eq i c
  rw [ld_rows_apply_bf16 x1 _ _ (by rw [h0]; rfl)]
  have hlt : (i 1).val * 2048 + 256 * c.val + x.val < 100352 := by
    have h1 : (i 1).val < 49 := (i 1).isLt
    have h2 := c.isLt; have h3 := x.isLt; omega
  unfold rowAt
  rw [dif_pos hlt]
  refine congrArg x1 (congrArg (fun q => ix2 q e) (Fin.ext ?_))
  show k0_off1 i (BitVec.ofNat 32 (256 * c.val)) 0 + x.val = _
  rw [h0]
  show 2048 * (i 1).val + 256 * c.val + x.val = (i 1).val * 2048 + 256 * c.val + x.val
  omega

set_option maxHeartbeats 4000000 in
/-- Away from the first and the last vocabulary tile the body adds the tile's products to the carried accumulator. -/
theorem sout_B_apply (c : Dev nD) (i : grid0.Coords) (arg2 : Memref sig .tc .vmem S1024x20 .i32) (harg2 : arg2.IsWhole) (arg3 : Memref sig .tc .vmem S100352x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : ¬cond0_1 i)
    (x0 : Vec Ideal S1024x20 .i32) (x1 : Vec Ideal S100352x64 .bf16) (x2 : Vec Ideal S1x64 .f32) (xs0 : Vec Ideal S1024x64 .f32) (r : Fin 1024) (e : Fin 64) :
    sout0_B_0 (F := Ideal) c i arg2 harg2 arg3 harg3 arg4 harg4 arg5 harg5 arg6 harg6 hc0 hc1 x0 x1 x2 xs0 (ix2 r e) = xs0 (ix2 r e) + tileNF (i 1).val x0 x1 r e := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_run_names
  rw [View.canon_unit_zero hz2]
  simp only [View.readAt_eq_ld, harg2.read_unread, harg3.read_unread, harg6.read_unread, View.ld_unit_zero (S := S1024x20) hz2, View.ld_unit_zero (S := S1024x64) hz2]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  simp only [addf_apply, mm_apply, truncf_apply, sitofp_apply, extui_apply, cmpi_at, addi_at, bcast_col_apply, bcast_row_apply, bcast_bias_apply, slice_col_apply, broadcast_apply, constant_apply, shapeCast_self, Ideal.ofBits_def, Ideal.ofBits_zero_f32, ofBits_zero_bf16, zero_add, hit_eq, iota, List.foldl_cons, List.foldl_nil, zero_mul, lane_eq]
  simp only [ld_tile x1 i 0 ⟨0, by decide⟩ rfl, ld_tile x1 i 256 ⟨1, by decide⟩ rfl, ld_tile x1 i 512 ⟨2, by decide⟩ rfl, ld_tile x1 i 768 ⟨3, by decide⟩ rfl, ld_tile x1 i 1024 ⟨4, by decide⟩ rfl, ld_tile x1 i 1280 ⟨5, by decide⟩ rfl, ld_tile x1 i 1536 ⟨6, by decide⟩ rfl, ld_tile x1 i 1792 ⟨7, by decide⟩ rfl]
  simp only [tileNF, chunkTerm, cnt20]
  rfl

set_option maxHeartbeats 4000000 in
/-- At the first vocabulary tile the body zeroes the accumulator, then adds the tile's products. -/
theorem sout_A_apply (c : Dev nD) (i : grid0.Coords) (arg2 : Memref sig .tc .vmem S1024x20 .i32) (harg2 : arg2.IsWhole) (arg3 : Memref sig .tc .vmem S100352x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : cond0_0 i) (hc1 : ¬cond0_1 i)
    (x0 : Vec Ideal S1024x20 .i32) (x1 : Vec Ideal S100352x64 .bf16) (x2 : Vec Ideal S1x64 .f32) (r : Fin 1024) (e : Fin 64) :
    sout0_A_0 (F := Ideal) c i arg2 harg2 arg3 harg3 arg4 harg4 arg5 harg5 arg6 harg6 hc0 hc1 x0 x1 x2 (ix2 r e) = tileNF (i 1).val x0 x1 r e := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_run_names
  rw [View.canon_cons_unit_zero (S := S1024x64) hz2]
  simp only [View.readAt_eq_ld, harg2.read_unread, harg3.read_unread, harg6.read_unread, View.ld_unit_zero (S := S1024x20) hz2, View.ld_unit_zero (S := S1024x64) hz2, View.readCov_unit_zero (S := S1024x64) _ hz2]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  simp only [addf_apply, mm_apply, truncf_apply, sitofp_apply, extui_apply, cmpi_at, addi_at, bcast_col_apply, bcast_row_apply, bcast_bias_apply, slice_col_apply, broadcast_apply, constant_apply, shapeCast_self, Ideal.ofBits_def, Ideal.ofBits_zero_f32, ofBits_zero_bf16, zero_add, hit_eq, iota, List.foldl_cons, List.foldl_nil, zero_mul, lane_eq]
  simp only [ld_tile x1 i 0 ⟨0, by decide⟩ rfl, ld_tile x1 i 256 ⟨1, by decide⟩ rfl, ld_tile x1 i 512 ⟨2, by decide⟩ rfl, ld_tile x1 i 768 ⟨3, by decide⟩ rfl, ld_tile x1 i 1024 ⟨4, by decide⟩ rfl, ld_tile x1 i 1280 ⟨5, by decide⟩ rfl, ld_tile x1 i 1536 ⟨6, by decide⟩ rfl, ld_tile x1 i 1792 ⟨7, by decide⟩ rfl]
  simp only [tileNF, chunkTerm, cnt20]
  rfl

set_option maxHeartbeats 4000000 in
/-- At the last vocabulary tile the accumulator is updated as at the tiles before it … -/
theorem sout_C_apply (c : Dev nD) (i : grid0.Coords) (arg2 : Memref sig .tc .vmem S1024x20 .i32) (harg2 : arg2.IsWhole) (arg3 : Memref sig .tc .vmem S100352x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i)
    (x0 : Vec Ideal S1024x20 .i32) (x1 : Vec Ideal S100352x64 .bf16) (x2 : Vec Ideal S1x64 .f32) (xs0 : Vec Ideal S1024x64 .f32) (r : Fin 1024) (e : Fin 64) :
    sout0_C_0 (F := Ideal) c i arg2 harg2 arg3 harg3 arg4 harg4 arg5 harg5 arg6 harg6 hc0 hc1 x0 x1 x2 xs0 (ix2 r e) = xs0 (ix2 r e) + tileNF (i 1).val x0 x1 r e := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_run_names
  rw [View.canon_unit_zero hz2]
  simp only [View.readAt_eq_ld, harg2.read_unread, harg3.read_unread, harg6.read_unread, View.ld_unit_zero (S := S1024x20) hz2, View.ld_unit_zero (S := S1024x64) hz2]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  simp only [addf_apply, mm_apply, truncf_apply, sitofp_apply, extui_apply, cmpi_at, addi_at, bcast_col_apply, bcast_row_apply, bcast_bias_apply, slice_col_apply, broadcast_apply, constant_apply, shapeCast_self, Ideal.ofBits_def, Ideal.ofBits_zero_f32, ofBits_zero_bf16, zero_add, hit_eq, iota, List.foldl_cons, List.foldl_nil, zero_mul, lane_eq]
  simp only [ld_tile x1 i 0 ⟨0, by decide⟩ rfl, ld_tile x1 i 256 ⟨1, by decide⟩ rfl, ld_tile x1 i 512 ⟨2, by decide⟩ rfl, ld_tile x1 i 768 ⟨3, by decide⟩ rfl, ld_tile x1 i 1024 ⟨4, by decide⟩ rfl, ld_tile x1 i 1280 ⟨5, by decide⟩ rfl, ld_tile x1 i 1536 ⟨6, by decide⟩ rfl, ld_tile x1 i 1792 ⟨7, by decide⟩ rfl]
  simp only [tileNF, chunkTerm, cnt20]
  rfl

set_option maxHeartbeats 4000000 in
/-- … and the output block stored is the updated accumulator plus the bias row. -/
theorem out_C_apply (c : Dev nD) (i : grid0.Coords) (arg2 : Memref sig .tc .vmem S1024x20 .i32) (harg2 : arg2.IsWhole) (arg3 : Memref sig .tc .vmem S100352x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole) (hc0 : ¬cond0_0 i) (hc1 : cond0_1 i)
    (x0 : Vec Ideal S1024x20 .i32) (x1 : Vec Ideal S100352x64 .bf16) (x2 : Vec Ideal S1x64 .f32) (xs0 : Vec Ideal S1024x64 .f32) (r : Fin 1024) (e : Fin 64) :
    out0_C_3 (F := Ideal) c i arg2 harg2 arg3 harg3 arg4 harg4 arg5 harg5 arg6 harg6 hc0 hc1 x0 x1 x2 xs0 (ix2 r e) = (xs0 (ix2 r e) + tileNF (i 1).val x0 x1 r e) + x2 (ix2 0 e) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_run_names
  rw [View.canon_unit_zero hz2]
  simp only [View.readAt_eq_ld, harg2.read_unread, harg3.read_unread, harg4.read_unread, harg6.read_unread, View.ld_unit_zero (S := S1024x20) hz2, View.ld_unit_zero (S := S1024x64) hz2, View.ld_unit_zero (S := S1x64) hz2, View.readCov_unit_zero (S := S1024x64) _ hz2]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
  simp only [addf_apply, mm_apply, truncf_apply, sitofp_apply, extui_apply, cmpi_at, addi_at, bcast_col_apply, bcast_row_apply, bcast_bias_apply, slice_col_apply, broadcast_apply, constant_apply, shapeCast_self, Ideal.ofBits_def, Ideal.ofBits_zero_f32, ofBits_zero_bf16, zero_add, hit_eq, iota, List.foldl_cons, List.foldl_nil, zero_mul, lane_eq]
  simp only [ld_tile x1 i 0 ⟨0, by decide⟩ rfl, ld_tile x1 i 256 ⟨1, by decide⟩ rfl, ld_tile x1 i 512 ⟨2, by decide⟩ rfl, ld_tile x1 i 768 ⟨3, by decide⟩ rfl, ld_tile x1 i 1024 ⟨4, by decide⟩ rfl, ld_tile x1 i 1280 ⟨5, by decide⟩ rfl, ld_tile x1 i 1536 ⟨6, by decide⟩ rfl, ld_tile x1 i 1792 ⟨7, by decide⟩ rfl]
  simp only [tileNF, chunkTerm, cnt20]
  rfl

/-! ## The normal form as sums -/

/-- Twenty terms added one after the other are their sum. -/
theorem cnt20_eq_sum (g : Fin 20 → EReal) : cnt20 g = ∑ k : Fin 20, g k := by
  unfold cnt20
  simp only [Fin.sum_univ_castSucc, Fin.sum_univ_zero, zero_add]
  rfl

/-- The tile's eight chunks as a sum over chunks and lanes of the row's counts times the table rows. -/
theorem tileNF_eq_sum (vt : ℕ) (x0 : Vec Ideal S1024x20 .i32) (x1 : Vec Ideal S100352x64 .bf16) (r : Fin 1024) (e : Fin 64) :
    tileNF vt x0 x1 r e
      = ∑ ch : Fin 8, ∑ x : Fin 256,
          (∑ k : Fin 20, hit (x0 (ix2 r k)) (BitVec.ofNat 32 (vt * 2048 + ch.val * 256 + x.val)))
            * rowAt x1 (vt * 2048 + ch.val * 256 + x.val) e := by
  unfold tileNF chunkTerm
  simp only [cnt20_eq_sum, Fin.sum_univ_eight]
  rfl

end Cert.KernelIdeal.PointValue

end
-- ==== Proof.Accum.lean ====
/-
  The accumulator across the vocabulary tiles.  Grid point t works on row tile t / 49 and vocabulary tile
  t % 49; the body zeroes the accumulator at vocabulary tile 0 and adds each tile's products, so after point t
  the accumulator holds, for local row r, the sum over the vocabulary tiles 0 … t % 49 of the tile's products for row
  (t / 49) · 1024 + r; at the last tile (t % 49 = 48) the sum runs over the whole padded vocabulary, where the
  count vector times the padded table is the sum of the twenty gathered table columns, and the stored block is
  that plus the bias: the bag of the row.
-/
import proofs.«429716_j70411693850629_3_alg».proof.Proof.Gen.KernelIdeal.Frame
import proofs.«429716_j70411693850629_3_alg».proof.Proof.Spec
import proofs.«429716_j70411693850629_3_alg».proof.Proof.Algebra
import proofs.«429716_j70411693850629_3_alg».proof.Proof.HostPrefix
import proofs.«429716_j70411693850629_3_alg».proof.Proof.PointValue
import Idealize.ShloMosaic.Lib.ValueIdx

noncomputable section

namespace Cert.KernelIdeal.Accum

open Idealize.ShloMosaic Idealize.ShloMosaic.ValueIdx Idealize.ShloMosaic.TcCoe Idealize.SL.Sem
open Cert.KernelIdeal Cert.KernelIdeal.Gen Cert.KernelIdeal.HostPrefix Cert.KernelIdeal.PointValue Cert.Bag
open scoped BigOperators

variable (m : (ℓ : Loc nD τ sig) → Buf (Elt Ideal) ℓ)

/-- What vocabulary tile `vt` contributes to row `R` at coordinate `e`, in terms of the arguments. -/
def tileVal (ids : IVec SIds 32) (W : FVec Ideal SW .f32) (R : Fin 51200) (vt : ℕ) (e : Fin 64) : EReal :=
  ∑ ch : Fin 8, ∑ x : Fin 256,
    (∑ k : Fin 20, hit (idRow ids R k) (BitVec.ofNat 32 (vt * 2048 + ch.val * 256 + x.val)))
      * (if h : vt * 2048 + ch.val * 256 + x.val < 100352 then wpad W ⟨vt * 2048 + ch.val * 256 + x.val, h⟩ e else 0)

/-! ## The grid -/

/-- The grid's inner coordinate is the vocabulary tile. -/
theorem coords_tile : ∀ t : Fin cfg0.N, (grid0.coords t 1).val = t.val % 49 :=
  (by decide +kernel : ∀ t : Fin grid0.N, (grid0.coords t 1).val = t.val % 49)

/-! ## One tile's products in terms of the arguments -/

/-- What the body adds at grid point `t`, in terms of the arguments: the contribution of vocabulary tile `t % 49`
    to the rows of row tile `t / 49`. -/
theorem tile_bridge (c : Dev nD) (hin : InRange (idsArg m c)) (t : Fin cfg0.N) (r : Fin 1024) (e : Fin 64) :
    tileNF (grid0.coords t 1).val (idsBlk m c t) (tblBlk m c t) r e
      = tileVal (idsArg m c) (wArg m c) (blkRow t.val (lt_of_lt_of_eq t.isLt (show cfg0.N = 2450 from N_0)) r) (t.val % 49) e := by
  rw [tileNF_eq_sum, coords_tile t]
  unfold tileVal
  refine Finset.sum_congr rfl fun ch _ => Finset.sum_congr rfl fun x _ => ?_
  have h1 : (∑ k : Fin 20, hit (idsBlk m c t (ix2 r k)) (BitVec.ofNat 32 (t.val % 49 * 2048 + ch.val * 256 + x.val)))
      = ∑ k : Fin 20, hit (idRow (idsArg m c) (blkRow t.val (lt_of_lt_of_eq t.isLt (show cfg0.N = 2450 from N_0)) r) k)
          (BitVec.ofNat 32 (t.val % 49 * 2048 + ch.val * 256 + x.val)) :=
    Finset.sum_congr rfl fun k _ => by rw [idsBlk_apply m c hin t r k]
  have h2 : rowAt (tblBlk m c t) (t.val % 49 * 2048 + ch.val * 256 + x.val) e
      = (if h : t.val % 49 * 2048 + ch.val * 256 + x.val < 100352
          then wpad (wArg m c) ⟨t.val % 49 * 2048 + ch.val * 256 + x.val, h⟩ e else 0) := by
    unfold rowAt
    by_cases h : t.val % 49 * 2048 + ch.val * 256 + x.val < 100352
    · rw [dif_pos h, dif_pos h, tblBlk_apply m c t _ h e]
    · rw [dif_neg h, dif_neg h]
  rw [h1, h2]

/-! ## The accumulator, by induction over the grid points -/

/-- The accumulator after the grid point at position `n`: the tiles 0 … n % 49 of row tile n / 49. -/
theorem scratch_val_nat (c : Dev nD) (hin : InRange (idsArg m c)) (r : Fin 1024) (e : Fin 64) :
    ∀ (n : ℕ) (hn : n < cfg0.N),
      (outsAt0 m c n hn).2 (ix2 r e)
        = ∑ vt ∈ Finset.range (n % 49 + 1),
            tileVal (idsArg m c) (wArg m c) (blkRow n (lt_of_lt_of_eq hn (show cfg0.N = 2450 from N_0)) r) vt e := by
  intro n
  induction n using Nat.strong_induction_on with
  | _ n ih =>
    intro hn
    have hN : n < 2450 := lt_of_lt_of_eq hn (show cfg0.N = 2450 from N_0)
    have hb : tileNF (grid0.coords ⟨n, hn⟩ 1).val (iblk m c 0 ⟨n, hn⟩) (iblk m c 1 ⟨n, hn⟩) r e
        = tileVal (idsArg m c) (wArg m c) (blkRow n hN r) (n % 49) e := tile_bridge m c hin ⟨n, hn⟩ r e
    by_cases h0 : n % 49 = 0
    · have h1 : ¬n % 49 = 48 := by omega
      rw [outsAt0_A m c ⟨n, hn⟩ h0 h1]
      dsimp only
      refine (sout_A_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) r e).trans ?_
      rw [hb, h0, Finset.sum_range_one]
    · have hn' : n - 1 < cfg0.N := Nat.lt_of_le_of_lt (Nat.sub_le _ _) hn
      have ihp := ih (n - 1) (by omega) hn'
      have hrow : blkRow (n - 1) (lt_of_lt_of_eq hn' (show cfg0.N = 2450 from N_0)) r = blkRow n hN r := by
        apply Fin.ext
        show (n - 1) / 49 * 1024 + r.val = n / 49 * 1024 + r.val
        omega
      have hmod : (n - 1) % 49 + 1 = n % 49 := by omega
      rw [hrow, hmod] at ihp
      by_cases h1 : n % 49 = 48
      · rw [outsAt0_C m c ⟨n, hn⟩ h0 h1]
        dsimp only
        refine (sout_C_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (outsAt0 m c (n - 1) hn').2 r e).trans ?_
        rw [ihp, hb, Finset.sum_range_succ]
      · rw [outsAt0_B m c ⟨n, hn⟩ h0 h1]
        dsimp only
        refine (sout_B_apply c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (outsAt0 m c (n - 1) hn').2 r e).trans ?_
        rw [ihp, hb, Finset.sum_range_succ]

/-- The accumulator after grid point `t`. -/
theorem scratch_val (c : Dev nD) (hin : InRange (idsArg m c)) (t : Fin cfg0.N) (r : Fin 1024) (e : Fin 64) :
    (outsAt0 m c t.val t.isLt).2 (ix2 r e)
      = ∑ vt ∈ Finset.range (t.val % 49 + 1),
          tileVal (idsArg m c) (wArg m c) (blkRow t.val (lt_of_lt_of_eq t.isLt (show cfg0.N = 2450 from N_0)) r) vt e :=
  scratch_val_nat m c hin r e t.val t.isLt

/-! ## The whole vocabulary: the bag -/

/-- The 49 tiles' contributions to a row add up to the sum of the twenty table columns its ids name. -/
theorem sum_tileVal (ids : IVec SIds 32) (hin : InRange ids) (W : FVec Ideal SW .f32) (hW : FiniteW W) (R : Fin 51200) (e : Fin 64) :
    ∑ vt ∈ Finset.range 49, tileVal ids W R vt e = ∑ k : Fin 20, W (ix2 e (vid (idRow ids R k))) := by
  rw [Finset.sum_range]
  unfold tileVal
  refine (sum_tiles (fun n => (∑ k : Fin 20, hit (idRow ids R k) (BitVec.ofNat 32 n))
      * (if h : n < 100352 then wpad W ⟨n, h⟩ e else 0))).trans ?_
  rw [← onehot_sum (idRow ids R) (fun k => hin _ _ _) W hW e]
  refine Finset.sum_congr rfl fun v _ => ?_
  show _ * (if h : v.val < 100352 then wpad W ⟨v.val, h⟩ e else 0) = _
  rw [dif_pos v.isLt]

/-- The block the last vocabulary tile's point stores (and the pipeline writes back): the bags of its rows. -/
theorem flushed_val (c : Dev nD) (hin : InRange (idsArg m c)) (hW : FiniteW (wArg m c)) (t : Fin cfg0.N) (h48 : t.val % 49 = 48)
    (r : Fin 1024) (e : Fin 64) :
    (outsAt0 m c t.val t.isLt).1 (ix2 r e)
      = bagRow (idsArg m c) (wArg m c) (bArg m c) (blkRow t.val (lt_of_lt_of_eq t.isLt (show cfg0.N = 2450 from N_0)) r) e := by
  have h0 : ¬t.val % 49 = 0 := by omega
  have hs := scratch_val m c hin t r e
  rw [outsAt0_C m c t h0 h48] at hs ⊢
  dsimp only at hs ⊢
  have hA := sout_C_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h48) (iblk m c 0 t) (iblk m c 1 t) (iblk m c 2 t) (outsAt0 m c (t.val - 1) (Nat.lt_of_le_of_lt (Nat.sub_le _ _) t.isLt)).2 r e
  refine (out_C_apply c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h48) (iblk m c 0 t) (iblk m c 1 t) (iblk m c 2 t) (outsAt0 m c (t.val - 1) (Nat.lt_of_le_of_lt (Nat.sub_le _ _) t.isLt)).2 r e).trans ?_
  rw [← hA, hs, h48, sum_tileVal (idsArg m c) hin (wArg m c) hW]
  have hbias : iblk m c 2 t (ix2 (0 : Fin 1) e) = bArg m c (ix1 e) := biasBlk_apply m c t e
  rw [hbias]
  rfl

end Cert.KernelIdeal.Accum

end
-- ==== Proof.KernelRun.lean ====
/-
  The kernel's run with its result named.  The pipeline writes the output block back at the last vocabulary tile of
  each row tile (grid points t with t % 49 = 48), block t / 49 of the 51200 × 64 result; those fifty blocks
  tile the result, each holding the bags of its rows, and the host reshapes the result to 1024 × 50 × 64: row
  R = 50 p + s is position (p, s).
-/
import proofs.«429716_j70411693850629_3_alg».proof.Proof.Gen.KernelIdeal.Frame
import proofs.«429716_j70411693850629_3_alg».proof.Proof.Spec
import proofs.«429716_j70411693850629_3_alg».proof.Proof.HostPrefix
import proofs.«429716_j70411693850629_3_alg».proof.Proof.Accum
import Idealize.ShloMosaic.Lib.ValueIdx
import Idealize.ShloMosaic.Lib.Pipeline.Value
import Idealize.ShloMosaic.Lib.StableHlo.Run

noncomputable section

namespace Cert.KernelIdeal.KernelRun

open Idealize.ShloMosaic Idealize.ShloMosaic.ValueIdx Idealize.ShloMosaic.TcCoe Idealize.SL.Sem
open Cert.KernelIdeal Cert.KernelIdeal.Gen Cert.KernelIdeal.HostPrefix Cert.KernelIdeal.Accum Cert.Bag

variable (m : (ℓ : Loc nD τ sig) → Buf (Elt Ideal) ℓ) (ρ : Dev nD → PrngReg)

/-! ## The result array, row by row -/

/-- The 51200 × 64 result array: row R holds the bag of position (R / 50, R % 50). -/
abbrev G6 (c : Dev nD) : S51200x64.Idx → EReal :=
  fun i => bagRow (idsArg m c) (wArg m c) (bArg m c) (i 0 : Fin 51200) (i 1 : Fin 64)

/-- Grid point t writes (when it does) block t / 49 of the rows, all 64 columns. -/
theorem out_index_facts : ∀ t : Fin cfg0.N, win0_3.index t (0 : Fin 2) = t.val / 49 ∧ win0_3.index t (1 : Fin 2) = 0 :=
  (by decide +kernel : ∀ t : Fin grid0.N, _)

/-- What a flushing point writes back is its block of the result array. -/
theorem flushed_eq (c : Dev nD) (hin : InRange (idsArg m c)) (hW : FiniteW (wArg m c)) (t : Fin cfg0.N)
    (hf : (cfg0.win 3).flush t = true) :
    (dats m 0 c).flushed 3 t = ((cfg0.win 3).blk t).view.read (Elt Ideal) (G6 m c) := by
  have h48 : t.val % 49 = 48 := (flush0_3 t).mp hf
  obtain ⟨e0, e1⟩ := out_index_facts t
  show (cfg0.win 3).cut (grid0.coords t) ((dats m 0 c).after 3 t) = _
  rw [after0_3]
  funext j
  obtain ⟨r, e, rfl⟩ : ∃ (r : Fin 1024) (e : Fin 64), j = ix2 r e := ⟨j 0, j 1, eq_ix2 j⟩
  have ht : t.val < 2450 := lt_of_lt_of_eq t.isLt (show cfg0.N = 2450 from N_0)
  have hemb : ((cfg0.win 3).blk t).view.emb (ix2 r e) = (ix2 (blkRow t.val ht r) e : S51200x64.Idx) := by
    funext a; apply Fin.ext
    match a with
    | ⟨0, _⟩ => show win0_3.index t (0 : Fin 2) * 1024 + 1 * r.val = t.val / 49 * 1024 + r.val; omega
    | ⟨1, _⟩ => show win0_3.index t (1 : Fin 2) * 64 + 1 * e.val = e.val; omega
  show (outsAt0 m c t.val t.isLt).1 (ix2 r e) = G6 m c (((cfg0.win 3).blk t).view.emb (ix2 r e))
  rw [hemb]
  exact flushed_val m c hin hW t h48 r e

/-- An index of the result array is in point t's block iff each coordinate is in the block's range on its axis. -/
theorem mem_blk (t : Fin cfg0.N) (i : S51200x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v6).slice (win0_3.rect t)).set ↔ _
  rw [View.set_slice_whole, Rect.mem_set_unit]
  exact Iff.rfl

/-- The fifty written blocks tile the result array — row R lies in the block of point (R / 1024) · 49 + 48 —, so after
    the last point the array holds the bag of every row. -/
theorem final (c : Dev nD) (hin : InRange (idsArg m c)) (hW : FiniteW (wArg m c)) :
    (dats m 0 c).arrAt 3 cfg0.N = G6 m c :=
  (dats m 0 c).arrAt_eq_of_cover 3 (G6 m c) (flushed_eq m c hin hW) fun i => by
    have hi0 : (i 0).val < 51200 := (i 0).isLt
    have hi1 : (i 1).val < 64 := (i 1).isLt
    have hN : cfg0.N = 2450 := N_0
    obtain ⟨t, htv⟩ : ∃ t : Fin cfg0.N, t.val = (i 0).val / 1024 * 49 + 48 := ⟨⟨(i 0).val / 1024 * 49 + 48, by omega⟩, rfl⟩
    obtain ⟨e0, e1⟩ := out_index_facts t
    refine ⟨t, (flush0_3 t).mpr (by omega), ?_⟩
    rw [mem_blk]
    intro a
    match a with
    | ⟨0, _⟩ =>
      show win0_3.index t (0 : Fin 2) * 1024 ≤ (i 0).val ∧ (i 0).val < win0_3.index t (0 : Fin 2) * 1024 + 1024
      omega
    | ⟨1, _⟩ =>
      show win0_3.index t (1 : Fin 2) * 64 ≤ (i 1).val ∧ (i 1).val < win0_3.index t (1 : Fin 2) * 64 + 64
      omega

/-! ## The reshape after the region -/

/-- The host's reshape to 1024 × 50 × 64 reads row 50 p + s at position (p, s): the bag. -/
theorem reshape_G6 (c : Dev nD) :
    shapeCast S1024x50x64 (G6 m c) shapeCasts_S51200x64_S1024x50x64 = bag (idsArg m c) (wArg m c) (bArg m c) := by
  funext i
  obtain ⟨p, s, e, rfl⟩ : ∃ (p : Fin 1024) (s : Fin 50) (e : Fin 64), i = ix3 p s e := ⟨i 0, i 1, i 2, eq_ix3 i⟩
  have hp : p.val < 1024 := p.isLt
  have hs : s.val < 50 := s.isLt
  rw [shapeCast_apply (G6 m c) shapeCasts_S51200x64_S1024x50x64 (ix3 p s e)
    (ix2 (⟨p.val * 50 + s.val, by omega⟩ : Fin 51200) e)
    (by
      rw [Shape.rowMajor_val_three, Shape.rowMajor_val_two]
      show (p.val * 50 + s.val) * 64 + e.val = (p.val * 50 + s.val) * 64 + e.val
      rfl)]
  show bagRow (idsArg m c) (wArg m c) (bArg m c) (⟨p.val * 50 + s.val, _⟩ : Fin 51200) e
    = bagAt (idsArg m c) (wArg m c) (bArg m c) p s e
  unfold bagRow
  have e1 : (⟨(p.val * 50 + s.val) / 50, by omega⟩ : Fin 1024) = p := Fin.ext (by show (p.val * 50 + s.val) / 50 = p.val; omega)
  have e2 : (⟨(p.val * 50 + s.val) % 50, Nat.mod_lt _ (by norm_num)⟩ : Fin 50) = s := Fin.ext (by show (p.val * 50 + s.val) % 50 = s.val; omega)
  show bagAt _ _ _ (⟨(p.val * 50 + s.val) / 50, _⟩ : Fin 1024) (⟨(p.val * 50 + s.val) % 50, _⟩ : Fin 50) e = _
  rw [e1, e2]

/-- What the lines after the region leave in the result: the bag. -/
theorem tail_eq (c : Dev nD) (hin : InRange (idsArg m c)) (hW : FiniteW (wArg m c)) :
    Pipeline.afterTail₀ cfgs (dats m) 0 (V0 m) [hostOps1] c main_v7 = bag (idsArg m c) (wArg m c) (bArg m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v6)
      = G6 m c :=
    (Pipeline.withArrays_arr spec0 launch0.win.arr_inj c _ _ 3).trans (final m c hin hW)
  exact (congrArg (fun X => shapeCast S1024x50x64 X shapeCasts_S51200x64_S1024x50x64) hA).trans (reshape_G6 m c)

/-- Every weakly fair execution of the idealized kernel program ends with the result array at the bag of the
    arguments, the arguments unchanged. -/
theorem run (hin : ∀ c : Dev nD, InRange (idsArg m c)) (hW : ∀ c : Dev nD, FiniteW (wArg m c)) :
    θ_run (defs (F := Ideal)) (onTc (τ := τ) (main (F := Ideal))) ⟨m, fun _ => 0, ρ⟩ (fun r => ∀ c : Dev nD,
      r.2.mem ((c.tc : Thread nD τ).loc main_v7) = bag (idsArg m c) (wArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (tail_eq m c (hin c) (hW c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefRun.lean ====
/-
  The reference's run, written over its operations in order.  @main transposes the table, calls the
  module's row-taking function on the transposed table and the ids (which in turn calls the selection
  helper once), sums the taken rows over the twenty ids of a position, and adds the broadcast bias.  With
  the two callees' bodies substituted at their call sites @main is a straight line of twenty-nine host
  operations; every execution of it terminates with each buffer at the operations' fold over the launch
  contents, and that fold at the result buffer is ONE pure term of the three argument arrays (`refTerm`),
  the argument buffers being unchanged.

  The fold is read in four consecutive pieces of the line (the start indices; the in-range mask; the taken
  rows; the sum and the bias), each piece's few live buffers read on their own and the pieces composed.
-/
import proofs.«429716_j70411693850629_3_alg».proof.ReferenceIdeal
import proofs.«429716_j70411693850629_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The term -/

/-- The ids with the negative ones moved up by the vocabulary size: `id + 100000` where `id < 0` (signed),
    else `id`. -/
def wrapped (ids : IVec S1024x50x20 32) : IVec S1024x50x20 32 :=
  select (cmpi .slt ids (broadcastInDim S1024x50x20 ![] bcast_S_S1024x50x20 (constantI S_ 32 0#32)))
    (addi ids (broadcastInDim S1024x50x20 ![] bcast_S_S1024x50x20 (constantI S_ 32 100000#32)))
    ids

/-- The start indices of the gather: the wrapped ids with a trailing unit axis (the index vector, of length one). -/
def starts (ids : IVec S1024x50x20 32) : IVec S1024x50x20x1 32 :=
  broadcastInDim S1024x50x20x1 ![0, 1, 2] bcast_S1024x50x20_S1024x50x20x1_0_1_2 (wrapped ids)

/-- Which positions hold a start index inside the table: `0 ≤ start ∧ start ≤ 99999` (signed), and-reduced over the
    unit axis from `true`. -/
def insideOf (st : IVec S1024x50x20x1 32) : IVec S1024x50x20 1 :=
  Host.reduce IntOp.andi
    (andi
      (cmpi .sge st (broadcastInDim S1024x50x20x1 ![] bcast_S_S1024x50x20x1 (constantI S_ 32 0#32)))
      (cmpi .sle st
        (broadcastInDim S1024x50x20x1 ![0, 1, 2, 3] bcast_S1x1x1x1_S1024x50x20x1_0_1_2_3
          (broadcastInDim S1x1x1x1 ![3] bcast_S1_S1x1x1x1_3 (constantI S1 32 99999#32)))))
    (constantI S_ 1 1#1) reducesTo_S1024x50x20x1_S1024x50x20_d3 h_S_

/-- The rows taken from a table `T` of rows at start indices `st` under the mask `msk`: row `start` for each id, kept
    where the mask is set, the quiet NaN pattern elsewhere. -/
def takenOf (msk : IVec S1024x50x20 1) (T : FVec F S100000x64 .f32) (st : IVec S1024x50x20x1 32) : FVec F S1024x50x20x64 .f32 :=
  select (broadcastInDim S1024x50x20x64 ![0, 1, 2] bcast_S1024x50x20_S1024x50x20x64_0_1_2 msk)
    (Host.gather gather_S100000x64_S1024x50x20x1_S1024x50x20x64_3_0_n_n_0_3_164 T st)
    (broadcastInDim S1024x50x20x64 ![] bcast_S_S1024x50x20x64 (constant S_ .f32 0x7FC00000#32))

/-- The taken rows summed over the ids of a position (from the constant `0x00000000`), plus the bias broadcast along
    the positions. -/
def sumOf (rows : FVec F S1024x50x20x64 .f32) (b : FVec F S64 .f32) : FVec F S1024x50x64 .f32 :=
  addf
    (Host.reduceAdd rows (constant S_ .f32 0x00000000#32) reducesTo_S1024x50x20x64_S1024x50x64_d2 h_S_)
    (broadcastInDim S1024x50x64 ![0, 1, 2] bcast_S1x1x64_S1024x50x64_0_1_2
      (broadcastInDim S1x1x64 ![2] bcast_S64_S1x1x64_2 b))

/-- The table transposed: one row per vocabulary entry. -/
def tableT (W : FVec F S64x100000 .f32) : FVec F S100000x64 .f32 :=
  transpose S100000x64 [1, 0] W transposes_S64x100000_S100000x64_1_0

/-- The reference's result as one term of the three argument arrays. -/
def refTerm (ids : IVec S1024x50x20 32) (W : FVec F S64x100000 .f32) (b : FVec F S64 .f32) : FVec F S1024x50x64 .f32 :=
  sumOf (takenOf (insideOf (starts ids)) (tableT W) (starts ids)) b

/-! ## The operations -/

/-- Operations 1–9: the transpose, then the row-taking function's first eight (the seventh the selection helper's
    one select): the start indices. -/
abbrev opsA : List (HloOp τ sig (Elt F)) :=
  [ unary main_arg1 main_v0 ((transpose S100000x64 [1, 0] · transposes_S64x100000_S100000x64_1_0) : (⟨S64x100000, .f32⟩ : BufTy).Contents (Elt F) → (⟨S100000x64, .f32⟩ : BufTy).Contents (Elt F)),
    TRef.nullary main_call0.c (constantI S_ 32 0#32),
    TRef.unary main_call0.c main_call0.v0 (broadcastInDim S1024x50x20 ![] bcast_S_S1024x50x20),
    TRef.binary (.of main_arg0) main_call0.v0 main_call0.v1 (cmpi .slt),
    TRef.nullary main_call0.c_0 (constantI S_ 32 100000#32),
    TRef.unary main_call0.c_0 main_call0.v2 (broadcastInDim S1024x50x20 ![] bcast_S_S1024x50x20),
    TRef.binary (.of main_arg0) main_call0.v2 main_call0.v3 addi,
    TRef.ternary main_call0.v1 main_call0.v3 (.of main_arg0) main_call0.call0.v0 select,
    TRef.unary main_call0.call0.v0 main_call0.v5 (broadcastInDim S1024x50x20x1 ![0, 1, 2] bcast_S1024x50x20_S1024x50x20x1_0_1_2) ]

/-- Operations 10–19: the in-range mask of the start indices. -/
abbrev opsB : List (HloOp τ sig (Elt F)) :=
  [ TRef.nullary main_call0.c_1 (constantI S1 32 99999#32),
    TRef.nullary main_call0.c_2 (constantI S_ 32 0#32),
    TRef.unary main_call0.c_2 main_call0.v6 (broadcastInDim S1024x50x20x1 ![] bcast_S_S1024x50x20x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S1024x50x20x1 ![0, 1, 2, 3] bcast_S1x1x1x1_S1024x50x20x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x20x1_S1024x50x20_d3 h_S_) ]

/-- Operations 20–24: the gather, the mask broadcast along the row, the NaN fill, the select (the call's result). -/
abbrev opsC : List (HloOp τ sig (Elt F)) :=
  [ TRef.binary (.of main_v0) main_call0.v5 main_call0.v13 (fun x i => Host.gather gather_S100000x64_S1024x50x20x1_S1024x50x20x64_3_0_n_n_0_3_164 x i),
    TRef.unary main_call0.v12 main_call0.v14 (broadcastInDim S1024x50x20x64 ![0, 1, 2] bcast_S1024x50x20_S1024x50x20x64_0_1_2),
    TRef.nullary main_call0.cst (constant S_ .f32 0x7FC00000#32),
    TRef.unary main_call0.cst main_call0.v15 (broadcastInDim S1024x50x20x64 ![] bcast_S_S1024x50x20x64),
    TRef.ternary main_call0.v14 main_call0.v13 main_call0.v15 main_call0.v16 select ]

/-- Operations 25–29: @main's own last five — the zero, the sum over the ids, the bias's two broadcasts, the add. -/
abbrev opsD : List (HloOp τ sig (Elt F)) :=
  [ nullary main_cst (constant S_ .f32 0x00000000#32),
    binary main_v1 main_cst main_v2 ((fun x v => Host.reduceAdd x v reducesTo_S1024x50x20x64_S1024x50x64_d2 h_S_) : (⟨S1024x50x20x64, .f32⟩ : BufTy).Contents (Elt F) → (⟨S_, .f32⟩ : BufTy).Contents (Elt F) → (⟨S1024x50x64, .f32⟩ : BufTy).Contents (Elt F)),
    unary main_arg2 main_v3 (broadcastInDim S1x1x64 ![2] bcast_S64_S1x1x64_2 : (⟨S64, .f32⟩ : BufTy).Contents (Elt F) → (⟨S1x1x64, .f32⟩ : BufTy).Contents (Elt F)),
    unary main_v3 main_v4 (broadcastInDim S1024x50x64 ![0, 1, 2] bcast_S1x1x64_S1024x50x64_0_1_2 : (⟨S1x1x64, .f32⟩ : BufTy).Contents (Elt F) → (⟨S1024x50x64, .f32⟩ : BufTy).Contents (Elt F)),
    binary main_v2 main_v4 main_v5 (addf : (⟨S1024x50x64, .f32⟩ : BufTy).Contents (Elt F) → (⟨S1024x50x64, .f32⟩ : BufTy).Contents (Elt F) → (⟨S1024x50x64, .f32⟩ : BufTy).Contents (Elt F)) ]

/-- @main's twenty-nine operations in order, the calls substituted: the transpose; the row-taking function's
    twenty-three over the record `main_call0` (its seventh the selection helper's one select, into
    `main_call0.call0`'s buffer), its last writing @main's `%1`; then @main's own five. -/
abbrev ops : List (HloOp τ sig (Elt F)) := opsA ++ (opsB ++ (opsC ++ opsD))

set_option maxRecDepth 1024 in
/-- @main is that straight line: the two callees' definitions unfolded at their calls and the records at their
    fields, both sides are one chain of steps once sequencing is reassociated. -/
theorem main_eq (c : Dev nD) : main (F := F) c = seq ops := by
  simp only [main, fn_take.body, fn_where.body, ops, List.cons_append, List.nil_append, seq, bind_assoc, pure_bind]

/-! ## The fold, piece by piece -/

/-- The fold over two lines run one after the other is the second's over the first's. -/
theorem after_append (l₁ l₂ : List (HloOp τ sig (Elt F))) (X : Valuation τ sig (Elt F)) :
    after (l₁ ++ l₂) X = after l₂ (after l₁ X) := by
  induction l₁ generalizing X with
  | nil => rfl
  | cons op l ih => simp only [List.cons_append, after_cons, ih]

section Pieces

variable (X : Valuation τ sig (Elt F))

theorem A_table : after opsA X (main_v0 : DevRef τ sig) = tableT (X (main_arg1 : DevRef τ sig)) := by
  after_results
  rfl

theorem A_starts : after opsA X (main_call0_v5 : DevRef τ sig) = starts (X (main_arg0 : DevRef τ sig)) := by
  after_results
  rfl

theorem A_arg0 : after opsA X (main_arg0 : DevRef τ sig) = X (main_arg0 : DevRef τ sig) := by after_results
theorem A_arg1 : after opsA X (main_arg1 : DevRef τ sig) = X (main_arg1 : DevRef τ sig) := by after_results
theorem A_arg2 : after opsA X (main_arg2 : DevRef τ sig) = X (main_arg2 : DevRef τ sig) := by after_results

attribute [local irreducible] Host.reduce in
theorem B_inside : after opsB X (main_call0_v12 : DevRef τ sig) = insideOf (X (main_call0_v5 : DevRef τ sig)) := by
  after_results
  rfl

theorem B_table : after opsB X (main_v0 : DevRef τ sig) = X (main_v0 : DevRef τ sig) := by after_results
theorem B_starts : after opsB X (main_call0_v5 : DevRef τ sig) = X (main_call0_v5 : DevRef τ sig) := by after_results
theorem B_arg0 : after opsB X (main_arg0 : DevRef τ sig) = X (main_arg0 : DevRef τ sig) := by after_results
theorem B_arg1 : after opsB X (main_arg1 : DevRef τ sig) = X (main_arg1 : DevRef τ sig) := by after_results
theorem B_arg2 : after opsB X (main_arg2 : DevRef τ sig) = X (main_arg2 : DevRef τ sig) := by after_results

attribute [local irreducible] Host.gather in
theorem C_taken : after opsC X (main_v1 : DevRef τ sig)
    = takenOf (X (main_call0_v12 : DevRef τ sig)) (X (main_v0 : DevRef τ sig)) (X (main_call0_v5 : DevRef τ sig)) := by
  after_results
  rfl

theorem C_arg0 : after opsC X (main_arg0 : DevRef τ sig) = X (main_arg0 : DevRef τ sig) := by after_results
theorem C_arg1 : after opsC X (main_arg1 : DevRef τ sig) = X (main_arg1 : DevRef τ sig) := by after_results
theorem C_arg2 : after opsC X (main_arg2 : DevRef τ sig) = X (main_arg2 : DevRef τ sig) := by after_results

attribute [local irreducible] Host.reduceAdd in
theorem D_sum : after opsD X (main_v5 : DevRef τ sig)
    = sumOf (X (main_v1 : DevRef τ sig)) (X (main_arg2 : DevRef τ sig)) := by
  after_results
  rfl

theorem D_arg0 : after opsD X (main_arg0 : DevRef τ sig) = X (main_arg0 : DevRef τ sig) := by after_results
theorem D_arg1 : after opsD X (main_arg1 : DevRef τ sig) = X (main_arg1 : DevRef τ sig) := by after_results
theorem D_arg2 : after opsD X (main_arg2 : DevRef τ sig) = X (main_arg2 : DevRef τ sig) := by after_results

end Pieces

/-- The fold at the result buffer is `refTerm` of the argument contents: the four pieces composed. -/
theorem out_eq (V : Valuation τ sig (Elt F)) :
    after ops V (main_v5 : DevRef τ sig)
      = refTerm (V (main_arg0 : DevRef τ sig)) (V (main_arg1 : DevRef τ sig)) (V (main_arg2 : DevRef τ sig)) := by
  unfold refTerm
  rw [show (ops : List (HloOp τ sig (Elt F))) = opsA ++ (opsB ++ (opsC ++ opsD)) from rfl,
    after_append, after_append, after_append, D_sum, C_taken, C_arg2, B_inside, B_table, B_starts, B_arg2,
    A_starts, A_table, A_arg2]

theorem arg0_eq (V : Valuation τ sig (Elt F)) :
    after ops V (main_arg0 : DevRef τ sig) = V (main_arg0 : DevRef τ sig) := by
  rw [show (ops : List (HloOp τ sig (Elt F))) = opsA ++ (opsB ++ (opsC ++ opsD)) from rfl,
    after_append, after_append, after_append, D_arg0, C_arg0, B_arg0, A_arg0]

theorem arg1_eq (V : Valuation τ sig (Elt F)) :
    after ops V (main_arg1 : DevRef τ sig) = V (main_arg1 : DevRef τ sig) := by
  rw [show (ops : List (HloOp τ sig (Elt F))) = opsA ++ (opsB ++ (opsC ++ opsD)) from rfl,
    after_append, after_append, after_append, D_arg1, C_arg1, B_arg1, A_arg1]

theorem arg2_eq (V : Valuation τ sig (Elt F)) :
    after ops V (main_arg2 : DevRef τ sig) = V (main_arg2 : DevRef τ sig) := by
  rw [show (ops : List (HloOp τ sig (Elt F))) = opsA ++ (opsB ++ (opsC ++ opsD)) from rfl,
    after_append, after_append, after_append, D_arg2, C_arg2, B_arg2, A_arg2]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub ..⟩

/-- From any memory with zero counters, for any float values: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The run read back: the result buffer ends at `refTerm` of the three argument buffers' launch contents, and
    the argument buffers end as they began. -/
theorem run_term (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c main_v5).trans (out_eq _), (h c main_arg0).trans (arg0_eq _), (h c main_arg1).trans (arg1_eq _),
      (h c main_arg2).trans (arg2_eq _)⟩)
    (run_main m ρ)

end Cert.ReferenceIdeal.RefRun

end
-- ==== Proof.LibGatherRows4.lean ====
/-
  A gather of whole ROWS of a matrix by an [a × b × c × 1] table of start indices (what `table[idx]` of a rank-2 table
  at a rank-3 integer array prints as), read at one element: entry (p, s, k, q) of the result is the table at the
  start index of (p, s, k), read as a signed integer and brought inside the table, and at column q.
-/
import Idealize.ShloMosaic.PureOps.Ideal
import Idealize.ShloMosaic.Lib.ValueIdx

noncomputable section

open Idealize.ShloMosaic Idealize.ShloMosaic.ValueIdx

namespace Cert.LibGatherRows4

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- Entry `k` of the list of the first three axes of four is axis `k`. -/
private theorem getElem_val_of_eq_012 (l : List (Fin 4)) (hl : l = [0, 1, 2]) (k : Nat) (hk : k < l.length) :
    (l[k]).val = k := by
  subst hl
  match k, hk with
  | 0, _ => rfl
  | 1, _ => rfl
  | 2, _ => rfl

/-- In that list, one of the first three axes stands at its own number. -/
private theorem idxOf_of_eq_012 (l : List (Fin 4)) (hl : l = [0, 1, 2]) (e : Fin 4) (he : e.val < 3) :
    l.idxOf e = e.val := by
  subst hl
  match e, he with
  | ⟨0, _⟩, _ => rfl
  | ⟨1, _⟩, _ => rfl
  | ⟨2, _⟩, _ => rfl

/-- The result's batch axes are axes 0, 1, 2: axis 3 is the offset axis. -/
private theorem batchDims_rows4 {N C a b c : Nat} (d : GatherDims ⟨2, ![N, C]⟩ ⟨4, ![a, b, c, 1]⟩ ⟨4, ![a, b, c, C]⟩)
    (hoff : d.offsetDims = [3]) : d.batchDims = [0, 1, 2] := by
  show Shape.kept _ d.offsetDims = [0, 1, 2]
  rw [hoff]
  show (List.finRange 4).filter (fun e : Fin 4 => e ∉ ([3] : List (Fin 4))) = [0, 1, 2]
  decide

/-- The start indices' axes but the index vector's are axes 0, 1, 2. -/
private theorem siKept_rows4 {N C a b c : Nat} (d : GatherDims ⟨2, ![N, C]⟩ ⟨4, ![a, b, c, 1]⟩ ⟨4, ![a, b, c, C]⟩)
    (hivd : d.indexVectorDim = 3) : d.siKept = [0, 1, 2] := by
  show (List.finRange 4).filter (fun e : Fin 4 => e.val ≠ d.indexVectorDim) = [0, 1, 2]
  rw [hivd]
  decide

/-- The operand's one axis that is neither collapsed nor batching is axis 1. -/
private theorem sKept_rows4 {N C a b c : Nat} (d : GatherDims ⟨2, ![N, C]⟩ ⟨4, ![a, b, c, 1]⟩ ⟨4, ![a, b, c, C]⟩)
    (hcoll : d.collapsedSliceDims = [0]) (hob : d.operandBatchingDims = []) : d.sKept = [1] := by
  show Shape.kept _ (d.collapsedSliceDims ++ d.operandBatchingDims) = [1]
  rw [hcoll, hob, List.append_nil]
  show (List.finRange 2).filter (fun e : Fin 2 => e ∉ ([0] : List (Fin 2))) = ([1] : List (Fin 2))
  decide

/-- The coordinate a result index gives one of the first three axes of the start indices is its own coordinate
    on that axis. -/
private theorem siCoord_rows4 {N C a b c : Nat} (d : GatherDims ⟨2, ![N, C]⟩ ⟨4, ![a, b, c, 1]⟩ ⟨4, ![a, b, c, C]⟩)
    (hoff : d.offsetDims = [3]) (hivd : d.indexVectorDim = 3)
    (j : (⟨4, ![a, b, c, C]⟩ : Shape).Idx) (e : Fin 4) (he : e.val < 3) (hmem : e ∈ d.siKept) :
    (d.siCoord j e hmem).val = (j e).val := by
  unfold GatherDims.siCoord
  simp only [Fin.val_cast]
  have hx : ∀ (n : Nat) (hn : n < d.batchDims.length), n = e.val → d.batchDims[n] = e := fun n hn hne =>
    Fin.ext (by rw [getElem_val_of_eq_012 _ (batchDims_rows4 d hoff) n hn, hne])
  rw [hx _ _ (idxOf_of_eq_012 _ (siKept_rows4 d hivd) e he)]

/-- The start-index table is read at the result index's first three coordinates, and 0 on the unit axis. -/
private theorem siIdx_rows4 {N C a b c : Nat} (d : GatherDims ⟨2, ![N, C]⟩ ⟨4, ![a, b, c, 1]⟩ ⟨4, ![a, b, c, C]⟩)
    (hoff : d.offsetDims = [3]) (hsim : d.startIndexMap = [0]) (hivd : d.indexVectorDim = 3)
    (j : (⟨4, ![a, b, c, C]⟩ : Shape).Idx) (m : Fin d.startIndexMap.length) :
    d.siIdx j m = ix4 (j 0) (j 1) (j 2) (0 : Fin 1) := by
  funext e
  match e with
  | ⟨0, _⟩ =>
    unfold GatherDims.siIdx
    rw [dif_neg (by rw [hivd]; simp)]
    exact Fin.ext (siCoord_rows4 d hoff hivd j ⟨0, by omega⟩ (by simp) _)
  | ⟨1, _⟩ =>
    unfold GatherDims.siIdx
    rw [dif_neg (by rw [hivd]; simp)]
    exact Fin.ext (siCoord_rows4 d hoff hivd j ⟨1, by omega⟩ (by simp) _)
  | ⟨2, _⟩ =>
    unfold GatherDims.siIdx
    rw [dif_neg (by rw [hivd]; simp)]
    exact Fin.ext (siCoord_rows4 d hoff hivd j ⟨2, by omega⟩ (by simp) _)
  | ⟨3, _⟩ =>
    unfold GatherDims.siIdx
    rw [dif_pos (by rw [hivd])]
    apply Fin.ext
    have hm : m.val < d.startIndexMap.length := m.isLt
    have hl : d.startIndexMap.length = 1 := by rw [hsim]; rfl
    show m.val = 0
    omega

/-- On the row axis the slice starts at the start index, read signed and brought inside the table. -/
private theorem start_rows4_0 {N C a b c w : Nat} (d : GatherDims ⟨2, ![N, C]⟩ ⟨4, ![a, b, c, 1]⟩ ⟨4, ![a, b, c, C]⟩)
    (hoff : d.offsetDims = [3]) (hcoll : d.collapsedSliceDims = [0]) (hsim : d.startIndexMap = [0])
    (hivd : d.indexVectorDim = 3) (idx : IVec ⟨4, ![a, b, c, 1]⟩ w) (j : (⟨4, ![a, b, c, C]⟩ : Shape).Idx) :
    d.start j idx 0 = min (idx (ix4 (j 0) (j 1) (j 2) (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_rows4 d hoff hsim hivd, hsl]
  rfl

/-- On the column axis, which no start index addresses, the slice starts at 0. -/
private theorem start_rows4_1 {N C a b c w : Nat} (d : GatherDims ⟨2, ![N, C]⟩ ⟨4, ![a, b, c, 1]⟩ ⟨4, ![a, b, c, C]⟩)
    (hsim : d.startIndexMap = [0]) (idx : IVec ⟨4, ![a, b, c, 1]⟩ w) (j : (⟨4, ![a, b, c, C]⟩ : Shape).Idx) :
    d.start j idx 1 = 0 := by
  unfold GatherDims.start
  rw [dif_neg]
  rw [hsim]
  show (1 : Fin 2) ∉ ([0] : List (Fin 2))
  decide

/-- The collapsed row axis has no offset coordinate. -/
private theorem offCoord_rows4_0 {N C a b c : Nat} (d : GatherDims ⟨2, ![N, C]⟩ ⟨4, ![a, b, c, 1]⟩ ⟨4, ![a, b, c, C]⟩)
    (hcoll : d.collapsedSliceDims = [0]) (j : (⟨4, ![a, b, c, C]⟩ : Shape).Idx) :
    d.offCoord j 0 = 0 := by
  apply d.offCoord_eq_zero
  intro h
  exact ((d.mem_sKept 0).1 h).1 (by rw [hcoll]; exact List.mem_singleton.mpr rfl)

/-- The column axis's offset coordinate is the result's last coordinate. -/
private theorem offCoord_rows4_1 {N C a b c : Nat} (d : GatherDims ⟨2, ![N, C]⟩ ⟨4, ![a, b, c, 1]⟩ ⟨4, ![a, b, c, C]⟩)
    (hoff : d.offsetDims = [3]) (hcoll : d.collapsedSliceDims = [0]) (hob : d.operandBatchingDims = [])
    (j : (⟨4, ![a, b, c, C]⟩ : Shape).Idx) :
    d.offCoord j 1 = (j 3).val := by
  have hk : (1 : Fin 2) ∈ d.sKept := by rw [sKept_rows4 d hcoll hob]; exact List.mem_singleton.mpr rfl
  unfold GatherDims.offCoord
  rw [dif_pos hk]
  have e : ∀ (n : Nat) (hn : n < d.offsetDims.length), d.offsetDims[n] = 3 :=
    fun n hn => getElem_of_eq_singleton _ _ hoff n hn
  rw [e]

/-- The row gather read at (p, s, k, q). -/
theorem gather_rows4 {α : Type} {N C a b c w : Nat} (d : GatherDims ⟨2, ![N, C]⟩ ⟨4, ![a, b, c, 1]⟩ ⟨4, ![a, b, c, C]⟩)
    (hoff : d.offsetDims = [3]) (hcoll : d.collapsedSliceDims = [0]) (hob : d.operandBatchingDims = [])
    (hsim : d.startIndexMap = [0]) (hivd : d.indexVectorDim = 3)
    (x : (⟨2, ![N, C]⟩ : Shape).Idx → α) (idx : IVec ⟨4, ![a, b, c, 1]⟩ w)
    (p : Fin a) (s : Fin b) (k : Fin c) (q : Fin C) (hN : 0 < N) :
    Host.gather d x idx (ix4 p s k q)
      = x (ix2 (⟨min (idx (ix4 p s k (0 : Fin 1))).toInt.toNat (N - 1), by omega⟩ : Fin N) q) := by
  unfold Host.gather
  congr 1
  funext e
  have hb : ∀ e : Fin 2, e ∉ d.operandBatchingDims := fun e => by rw [hob]; exact List.not_mem_nil
  match e with
  | ⟨0, _⟩ =>
    apply Fin.ext
    show d.start (ix4 p s k q) idx 0 + d.batchCoord (ix4 p s k q) 0 + d.offCoord (ix4 p s k q) 0 = _
    rw [start_rows4_0 d hoff hcoll hsim hivd, d.batchCoord_eq_zero _ _ (hb 0), offCoord_rows4_0 d hcoll]
    rfl
  | ⟨1, _⟩ =>
    apply Fin.ext
    show d.start (ix4 p s k q) idx 1 + d.batchCoord (ix4 p s k q) 1 + d.offCoord (ix4 p s k q) 1 = _
    rw [start_rows4_1 d hsim, d.batchCoord_eq_zero _ _ (hb 1), offCoord_rows4_1 d hoff hcoll hob]
    show 0 + 0 + q.val = q.val
    omega

end Cert.LibGatherRows4

end
-- ==== Proof.RefValue.lean ====
/-
  The reference's term read at an index, at the ideal values.  On ids inside the vocabulary the wrap of negative
  ids and the NaN mask of out-of-range ones are both the identity, the clamp of the gather's start index is the
  identity, the gathered row of the transposed table is a column of the table, and the host sum from the zero
  pattern is the plain sum over a position's twenty ids: the term is the bag

      (p, s, e) ↦ (∑ k < 20, W (e, ids (p, s, k))) + b e .

  The run of the reference is then restated with the bag in place of the term.
-/
import proofs.«429716_j70411693850629_3_alg».proof.Proof.RefRun
import proofs.«429716_j70411693850629_3_alg».proof.Proof.Spec
import proofs.«429716_j70411693850629_3_alg».proof.Proof.LibGatherRows4
import Idealize.ShloMosaic.Lib.ValueIdx
import Idealize.ShloMosaic.Lib.IdealHost
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem

/-! ## Words: an id inside the vocabulary -/

section Words

open Idealize.ShloMosaic.StableHlo.Predicate

/-- A vocabulary entry's word has its sign bit clear. -/
theorem lt_two_pow_31 {w : BitVec 32} (h : w.toNat < 100000) : w.toNat < 2 ^ 31 := by omega

/-- An id inside the vocabulary is not negative, so the wrap of negative ids leaves it. -/
theorem wrap_id (w : BitVec 32) (h : w.toNat < 100000) :
    Scalar.select (IntOp.cmpi .slt w 0#32) (IntOp.addi w 100000#32) w = w := by
  have hn : ¬ IntOp.cmpi .slt w 0#32 = 1#1 := by
    rw [slt_iff_toNat (lt_two_pow_31 h) (by decide)]
    exact Nat.not_lt_zero _
  rw [eq_zero_of_ne_one hn, select_zero]

/-- An id inside the vocabulary passes the two range tests, and the and-reduction from `true` over them is `true`. -/
theorem inside_bit (w : BitVec 32) (h : w.toNat < 100000) :
    IntOp.andi (IntOp.andi (IntOp.cmpi .sge w 0#32) (IntOp.cmpi .sle w 99999#32)) 1#1 = 1#1 := by
  have h1 : IntOp.cmpi .sge w 0#32 = 1#1 := (sge_iff_toNat (lt_two_pow_31 h) (by decide)).mpr (Nat.zero_le _)
  have h2 : IntOp.cmpi .sle w 99999#32 = 1#1 :=
    (sle_iff_toNat (lt_two_pow_31 h) (by decide)).mpr (by show w.toNat ≤ 99999; omega)
  rw [h1, h2]
  rfl

/-- Read signed and brought inside the table, an id inside the vocabulary is its own value. -/
theorem clamp_id (w : BitVec 32) (h : w.toNat < 100000) : min w.toInt.toNat (100000 - 1) = w.toNat := by
  rw [toInt_eq_toNat_of_lt (lt_two_pow_31 h), Int.toNat_natCast]
  exact Nat.min_eq_left (by omega)

end Words

/-! ## The shape facts that name the inserted indices -/

theorem reduces_d3 : S1024x50x20x1.Reduces [3] S1024x50x20 := by decide
theorem reduces_d2 : S1024x50x20x64.Reduces [2] S1024x50x64 := by decide

/-- Over the unit axis the inserted index is (p, s, k, 0). -/
theorem lift3_eq (p : Fin 1024) (s : Fin 50) (k : Fin 20) (u : Fin 1) :
    reduces_d3.lift (ix3 p s k) u = ix4 p s k (0 : Fin 1) := by
  have hu : u.val < 1 := u.isLt
  funext c
  match c with
  | ⟨0, _⟩ => exact Fin.ext rfl
  | ⟨1, _⟩ => exact Fin.ext rfl
  | ⟨2, _⟩ => exact Fin.ext rfl
  | ⟨3, _⟩ => exact Fin.ext (show u.val = 0 by omega)

/-- Over the axis of a position's ids the inserted index is (p, s, k, e). -/
theorem lift2_eq (p : Fin 1024) (s : Fin 50) (e : Fin 64) (k : Fin 20) :
    reduces_d2.lift (ix3 p s e) k = ix4 p s k e := by
  funext c
  match c with
  | ⟨0, _⟩ => exact Fin.ext rfl
  | ⟨1, _⟩ => exact Fin.ext rfl
  | ⟨2, _⟩ => exact Fin.ext rfl
  | ⟨3, _⟩ => exact Fin.ext rfl

/-- A fold over the one coordinate of a unit axis is one application. -/
theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-! ## The arrays of the term at an index -/

section Arrays

variable (ids : IVec S1024x50x20 32) (W : FVec Ideal S64x100000 .f32) (b : FVec Ideal S64 .f32)

/-- The wrapped ids are the ids where the id is inside the vocabulary. -/
theorem wrapped_apply (j : S1024x50x20.Idx) (h : (ids j).toNat < 100000) : wrapped ids j = ids j := by
  show Scalar.select (IntOp.cmpi .slt (ids j) 0#32) (IntOp.addi (ids j) 100000#32) (ids j) = ids j
  exact wrap_id _ h

/-- So are the start indices, on the unit axis's one coordinate. -/
theorem starts_apply (p : Fin 1024) (s : Fin 50) (k : Fin 20) (u : Fin 1) (h : (ids (ix3 p s k)).toNat < 100000) :
    starts ids (ix4 p s k u) = ids (ix3 p s k) := by
  unfold starts
  exact (broadcastInDim_apply ![0, 1, 2] bcast_S1024x50x20_S1024x50x20x1_0_1_2 (wrapped ids) (ix4 p s k u) (ix3 p s k)
    (fun a => match a with | ⟨0, _⟩ => rfl | ⟨1, _⟩ => rfl | ⟨2, _⟩ => rfl)).trans (wrapped_apply ids _ h)

/-- Every start index is inside the table. -/
theorem insideOf_starts_apply (hin : Cert.Bag.InRange ids) (p : Fin 1024) (s : Fin 50) (k : Fin 20) :
    insideOf (starts ids) (ix3 p s k) = 1#1 := by
  unfold insideOf
  rw [Host.reduce_eq_fold_single IntOp.andi _ _ reducesTo_S1024x50x20x1_S1024x50x20_d3 reduces_d3 h_S_ (ix3 p s k)]
  refine (fold_fin_one IntOp.andi _ _).trans ?_
  show IntOp.andi (IntOp.andi (IntOp.cmpi .sge (starts ids (reduces_d3.lift (ix3 p s k) (0 : Fin 1))) 0#32)
    (IntOp.cmpi .sle (starts ids (reduces_d3.lift (ix3 p s k) (0 : Fin 1))) 99999#32)) 1#1 = 1#1
  rw [lift3_eq, starts_apply ids p s k 0 (hin p s k)]
  exact inside_bit _ (hin p s k)

/-- The transposed table at (v, e) is the table at (e, v). -/
theorem tableT_apply (v : Fin 100000) (e : Fin 64) : tableT W (ix2 v e) = W (ix2 e v) := by
  unfold tableT
  exact transpose_apply [1, 0] W transposes_S64x100000_S100000x64_1_0 (ix2 v e) (ix2 e v)
    (fun c => match c with | ⟨0, _⟩ => rfl | ⟨1, _⟩ => rfl)

/-- The gathered row of (p, s, k) at e is the table's column of that id at e. -/
theorem gather_apply (hin : Cert.Bag.InRange ids) (p : Fin 1024) (s : Fin 50) (k : Fin 20) (e : Fin 64) :
    Host.gather gather_S100000x64_S1024x50x20x1_S1024x50x20x64_3_0_n_n_0_3_164 (tableT W) (starts ids) (ix4 p s k e)
      = W (ix2 e (Cert.Bag.vid (ids (ix3 p s k)))) := by
  rw [Cert.LibGatherRows4.gather_rows4 gather_S100000x64_S1024x50x20x1_S1024x50x20x64_3_0_n_n_0_3_164 rfl rfl rfl rfl rfl
    (tableT W) (starts ids) p s k e (by decide), tableT_apply]
  refine congrArg (fun v => W (ix2 e v)) (Fin.ext ?_)
  show min (starts ids (ix4 p s k (0 : Fin 1))).toInt.toNat (100000 - 1) = (Cert.Bag.vid (ids (ix3 p s k))).val
  rw [starts_apply ids p s k 0 (hin p s k), clamp_id _ (hin p s k), Cert.Bag.vid_val_of_lt _ (hin p s k)]

/-- The taken row: no NaN fill, since every start index is inside the table. -/
theorem takenOf_apply (hin : Cert.Bag.InRange ids) (p : Fin 1024) (s : Fin 50) (k : Fin 20) (e : Fin 64) :
    takenOf (insideOf (starts ids)) (tableT W) (starts ids) (ix4 p s k e) = W (ix2 e (Cert.Bag.vid (ids (ix3 p s k)))) := by
  unfold takenOf
  rw [select_apply,
    broadcastInDim_apply ![0, 1, 2] bcast_S1024x50x20_S1024x50x20x64_0_1_2 (insideOf (starts ids)) (ix4 p s k e) (ix3 p s k)
      (fun a => match a with | ⟨0, _⟩ => rfl | ⟨1, _⟩ => rfl | ⟨2, _⟩ => rfl),
    insideOf_starts_apply ids hin p s k, select_one, gather_apply ids W hin p s k e]

/-- The bias broadcast along the positions reads the bias at the coordinate. -/
theorem bias_apply (p : Fin 1024) (s : Fin 50) (e : Fin 64) :
    broadcastInDim S1024x50x64 ![0, 1, 2] bcast_S1x1x64_S1024x50x64_0_1_2
        (broadcastInDim S1x1x64 ![2] bcast_S64_S1x1x64_2 b) (ix3 p s e) = b (ix1 e) :=
  (broadcastInDim_apply ![0, 1, 2] bcast_S1x1x64_S1024x50x64_0_1_2 (broadcastInDim S1x1x64 ![2] bcast_S64_S1x1x64_2 b)
      (ix3 p s e) (ix3 (0 : Fin 1) (0 : Fin 1) e) (fun a => match a with | ⟨0, _⟩ => rfl | ⟨1, _⟩ => rfl | ⟨2, _⟩ => rfl)).trans
    (broadcastInDim_apply ![2] bcast_S64_S1x1x64_2 b (ix3 (0 : Fin 1) (0 : Fin 1) e) (ix1 e)
      (fun a => match a with | ⟨0, _⟩ => rfl))

/-- The host sum over a position's ids from the zero pattern is the sum over the twenty ids. -/
theorem sum_apply (rows : FVec Ideal S1024x50x20x64 .f32) (p : Fin 1024) (s : Fin 50) (e : Fin 64) :
    Host.reduceAdd rows (constant S_ .f32 0x00000000#32) reducesTo_S1024x50x20x64_S1024x50x64_d2 h_S_ (ix3 p s e)
      = ∑ k : Fin 20, rows (ix4 p s k e) := by
  rw [hostReduceAdd_apply, Ideal.hostReduceAdd_single reducesTo_S1024x50x20x64_S1024x50x64_d2 reduces_d2 rows _ (ix3 p s e),
    constant_apply, Ideal.ofBits_zero_f32, zero_add]
  show ∑ k : Fin 20, rows (reduces_d2.lift (ix3 p s e) k) = _
  exact Finset.sum_congr rfl (fun k _ => by rw [lift2_eq])

end Arrays

/-! ## The term is the bag -/

/-- On ids inside the vocabulary the reference's term is the bag. -/
theorem refTerm_eq_bag (ids : IVec Cert.Bag.SIds 32) (W : FVec Ideal Cert.Bag.SW .f32) (b : FVec Ideal Cert.Bag.SB .f32)
    (hin : Cert.Bag.InRange ids) :
    RefRun.refTerm (F := Ideal) ids W b = Cert.Bag.bag ids W b := by
  funext i
  obtain ⟨p, s, e, rfl⟩ : ∃ p s e, i = ix3 p s e := ⟨_, _, _, eq_ix3 i⟩
  show sumOf (takenOf (insideOf (starts ids)) (tableT W) (starts ids)) b (ix3 p s e) = Cert.Bag.bagAt ids W b p s e
  unfold sumOf Cert.Bag.bagAt
  rw [addf_apply, sum_apply, bias_apply]
  exact congrArg (· + b (ix1 e)) (Finset.sum_congr rfl (fun k _ => takenOf_apply ids W hin p s k e))

/-! ## The run, with the bag -/

/-- From any memory with zero counters whose ids are inside the vocabulary: every weakly fair execution of the
    reference terminates with the result buffer at the bag of the three argument buffers' launch contents, and the
    argument buffers as they began. -/
theorem run (m : (ℓ : Loc nD τ sig) → Buf (Elt Ideal) ℓ) (ρ : Dev nD → PrngReg)
    (hin : ∀ c : Dev nD, Cert.Bag.InRange (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v5)
          = Cert.Bag.bag (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c).1.trans (refTerm_eq_bag _ _ _ (hin c)), (h c).2⟩)
    (RefRun.run_term m ρ)

end Cert.ReferenceIdeal.RefValue

end
-- ==== Proof.lean ====
/-
  The embedding bag (the sum of the twenty table columns a position's ids name, plus the bias) computed by a
  multi-hot matrix product over vocabulary tiles agrees with the gather-and-sum reference, over the extended reals,
  wherever every id is a vocabulary entry (0 ≤ id < 100000) and the table and bias are finite.

  Both programs are shown to end with the result array at ONE function of the argument arrays,
  `Cert.Bag.bag ids W b (p, s, e) = (∑ k < 20, W (e, ids (p, s, k))) + b e`:
  * the reference: its operations composed into one term and read at an index — the wrap of negative ids and the
    out-of-range mask are the identity on ids in range, the gather reads the table row the id names;
  * the kernel: each grid point's body read at an index is the carried accumulator plus the point's vocabulary tile
    of `(∑ k, [ids (row, k) = v]) · table (v, e)`; by induction over the vocabulary tiles of a row tile the last
    point stores the sum over the whole zero-padded vocabulary plus the bias; a count vector times the padded table
    is the sum of the columns the ids name (every id hits exactly one vocabulary number, and the padding rows are
    hit by none); the stored blocks tile the result, which the host reshapes.
  The frames of the two kernel programs are the generated ones; the reference's frame is its run with the result
  dropped; the idealization rewrote nothing, so `preserves` is trivial.
-/
import proofs.«429716_j70411693850629_3_alg».proof.Defs
import proofs.«429716_j70411693850629_3_alg».proof.Proof.Gen.Kernel
import proofs.«429716_j70411693850629_3_alg».proof.Proof.Gen.Kernel.Skeleton
import proofs.«429716_j70411693850629_3_alg».proof.Proof.Gen.Kernel.Launch
import proofs.«429716_j70411693850629_3_alg».proof.Proof.Gen.Kernel.Points
import proofs.«429716_j70411693850629_3_alg».proof.Proof.Gen.Kernel.Frame
import proofs.«429716_j70411693850629_3_alg».proof.Proof.Gen.KernelIdeal
import proofs.«429716_j70411693850629_3_alg».proof.Proof.Gen.KernelIdeal.Skeleton
import proofs.«429716_j70411693850629_3_alg».proof.Proof.Gen.KernelIdeal.Launch
import proofs.«429716_j70411693850629_3_alg».proof.Proof.Gen.KernelIdeal.Points
import proofs.«429716_j70411693850629_3_alg».proof.Proof.Gen.KernelIdeal.Frame
import proofs.«429716_j70411693850629_3_alg».proof.Proof.Gen.ReferenceIdeal
import proofs.«429716_j70411693850629_3_alg».proof.Proof.Gen.Pre_finite_inputs
import proofs.«429716_j70411693850629_3_alg».proof.Proof.PreDecode
import proofs.«429716_j70411693850629_3_alg».proof.Proof.KernelRun
import proofs.«429716_j70411693850629_3_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefRun.run_term (F := Ideal) m ρ)

/-- Both runs end at the bag of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c => Cert.Bag.pre_decode _ _ _ (hpre c)
  refine ⟨_, Cert.KernelIdeal.KernelRun.run m ρ (fun c => (hdec c).1) (fun c => (hdec c).2.1), ?_⟩
  refine (θ_run (Cert.ReferenceIdeal.defs (F := Ideal)) _ _).mono (fun _ h c => ⟨(h c).1.trans ?_, (h c).2⟩)
    (Cert.ReferenceIdeal.RefValue.run m' ρ' (fun c => by rw [(hagree c).1]; exact (hdec c).1))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
